-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_v47 : IVec S_ 1) (main_v49 : IVec S2x800000 1) (main_c_19 : IVec S_ 1) : IVec S_ 1 :=
  let main_v50 : IVec S_ 1 := (fun x v => Host.reduce IntOp.andi x v reducesTo_S2x800000_S_d0_1 h_S_) main_v49 main_c_19
  let main_v51 : IVec S_ 1 := andi main_v47 main_v50
  main_v51

def fn_part2 {F : FTy → Type} [FloatOps F] (main_arg1 : IVec S2x800000 32) (main_arg8 : FVec F S256x2 .f32) (main_arg9 : FVec F S2 .f32) (main_v33 : IVec S_ 1) : IVec S_ 1 :=
  let main_v34 : FVec F S256x2 .f32 := Host.absf main_arg8
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 1 := constantI S_ 1 1#1
  let main_v46 : IVec S_ 1 := (fun x v => Host.reduce IntOp.andi x v reducesTo_S2x800000_S_d0_1 h_S_) main_v45 main_c_17
  let main_v47 : IVec S_ 1 := andi main_v43 main_v46
  let main_c_18 : IVec S_ 32 := constantI S_ 32 50000#32
  let main_v48 : IVec S2x800000 32 := broadcastInDim S2x800000 ![] bcast_S_S2x800000 main_c_18
  let main_v49 : IVec S2x800000 1 := cmpi .slt main_arg1 main_v48
  let main_c_19 : IVec S_ 1 := constantI S_ 1 1#1
  fn_part3 (F := F) main_v47 main_v49 main_c_19

def fn_part1 {F : FTy → Type} [FloatOps F] (main_arg1 : IVec S2x800000 32) (main_arg5 : FVec F S128x128 .f32) (main_arg6 : FVec F S128 .f32) (main_arg7 : FVec F S128x128 .f32) (main_arg8 : FVec F S256x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S128x2 : Shape := ⟨2, ![128, 2]⟩
abbrev S50000x2 : Shape := ⟨2, ![50000, 2]⟩
abbrev S2000x128 : Shape := ⟨2, ![2000, 128]⟩
abbrev S2000x1 : Shape := ⟨2, ![2000, 1]⟩
abbrev S2000x2 : Shape := ⟨2, ![2000, 2]⟩
abbrev S800000x2 : Shape := ⟨2, ![800000, 2]⟩
abbrev S1x2 : Shape := ⟨2, ![1, 2]⟩

abbrev nBuf : Space → Nat
  | .hbm => 152
  | .vmem => 28
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S256x2, .f32⟩
  | 9 => ⟨S2, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S1, .i32⟩
  | 36 => ⟨S_, .i32⟩
  | 37 => ⟨S800000x1, .i32⟩
  | 38 => ⟨S800000x1, .i1⟩
  | 39 => ⟨S1x1, .i32⟩
  | 40 => ⟨S800000x1, .i32⟩
  | 41 => ⟨S800000x1, .i1⟩
  | 42 => ⟨S800000x1, .i1⟩
  | 43 => ⟨S_, .i1⟩
  | 44 => ⟨S800000, .i1⟩
  | 45 => ⟨S800000x128, .f32⟩
  | 46 => ⟨S800000x128, .i1⟩
  | 47 => ⟨S_, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x128, .f32⟩
  | 74 => ⟨S800000x128, .i1⟩
  | 75 => ⟨S_, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S128x2, .f32⟩
  | 83 => ⟨S128x2, .f32⟩
  | 84 => ⟨S50000x128, .f32⟩
  | 85 => ⟨S50000x2, .f32⟩
  | 86 => ⟨S50000x2, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S1, .i32⟩
  | 96 => ⟨S_, .i32⟩
  | 97 => ⟨S800000x1, .i32⟩
  | 98 => ⟨S800000x1, .i1⟩
  | 99 => ⟨S1x1, .i32⟩
  | 100 => ⟨S800000x1, .i32⟩
  | 101 => ⟨S800000x1, .i1⟩
  | 102 => ⟨S800000x1, .i1⟩
  | 103 => ⟨S_, .i1⟩
  | 104 => ⟨S800000, .i1⟩
  | 105 => ⟨S800000x2, .f32⟩
  | 106 => ⟨S800000x2, .i1⟩
  | 107 => ⟨S_, .f32⟩
  | 108 => ⟨S800000x2, .f32⟩
  | 109 => ⟨S800000x2, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S1, .i32⟩
  | 119 => ⟨S_, .i32⟩
  | 120 => ⟨S800000x1, .i32⟩
  | 121 => ⟨S800000x1, .i1⟩
  | 122 => ⟨S1x1, .i32⟩
  | 123 => ⟨S800000x1, .i32⟩
  | 124 => ⟨S800000x1, .i1⟩
  | 125 => ⟨S800000x1, .i1⟩
  | 126 => ⟨S_, .i1⟩
  | 127 => ⟨S800000, .i1⟩
  | _ => ⟨S50000x128, .f32⟩

abbrev hbmTy0_1 (i : Nat) : BufTy := match i % 128 with
  | 0 => ⟨S800000x2, .f32⟩
  | 1 => ⟨S800000x2, .i1⟩
  | 2 => ⟨S_, .f32⟩
  | 3 => ⟨S800000x2, .f32⟩
  | 4 => ⟨S800000x2, .f32⟩
  | 5 => ⟨S800000x2, .f32⟩
  | 6 => ⟨S1x2, .f32⟩
  | 7 => ⟨S800000x2, .f32⟩
  | 8 => ⟨S800000x2, .f32⟩
  | 9 => ⟨S_, .f32⟩
  | 10 => ⟨S800000, .f32⟩
  | 11 => ⟨S_, .f32⟩
  | 12 => ⟨S800000, .f32⟩
  | 13 => ⟨S800000, .f32⟩
  | 14 => ⟨S800000x1, .f32⟩
  | 15 => ⟨S800000x2, .f32⟩
  | 16 => ⟨S800000x2, .f32⟩
  | 17 => ⟨S800000x2, .f32⟩
  | 18 => ⟨S_, .f32⟩
  | 19 => ⟨S800000, .f32⟩
  | 20 => ⟨S800000x1, .f32⟩
  | 21 => ⟨S800000x1, .f32⟩
  | 22 => ⟨S800000x2, .f32⟩
  | 23 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128x2, .f32⟩
  | .local _ .vmem, ⟨21, _⟩ => ⟨S128x2, .f32⟩
  | .local _ .vmem, ⟨22, _⟩ => ⟨S2000x128, .f32⟩
  | .local _ .vmem, ⟨23, _⟩ => ⟨S2000x128, .f32⟩
  | .local _ .vmem, ⟨24, _⟩ => ⟨S2000x2, .f32⟩
  | .local _ .vmem, ⟨25, _⟩ => ⟨S2000x2, .f32⟩
  | .local _ .vmem, ⟨26, _⟩ => ⟨S2000x2, .f32⟩
  | .local _ .vmem, ⟨27, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v13 : Ref sig .tc := ⟨.hbm, 49, rfl⟩
abbrev main_cst_3 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v18 : Ref sig .tc := ⟨.hbm, 77, rfl⟩
abbrev main_cst_4 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24_0 : Ref sig .tc := ⟨.hbm, 84, rfl⟩
abbrev main_v24_1 : Ref sig .tc := ⟨.hbm, 85, rfl⟩
abbrev main_v24_2 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v25 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_call4_cst : Ref sig .tc := ⟨.hbm, 137, rfl⟩
abbrev main_call4_v0 : Ref sig .tc := ⟨.hbm, 138, rfl⟩
abbrev main_call4_cst_0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_cst_1 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_v31 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S256x2_S128x2_0_0 : S256x2.Slices ![0, 0] S128x2
  slices_S256x2_S128x2_128_0 : S256x2.Slices ![128, 0] S128x2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2000x2_S2000x2_0_0 : ∀ a, (![0, 0] : Fin 2 → Nat) a + S2000x2.size a ≤ S2000x2.size a
  h_S2000x2 : 0 < S2000x2.numel
  bcast_S800000_S800000x2_0 : S800000.BroadcastsInDim S800000x2 (![0] : Fin 1 → Fin S800000x2.rank)
  bcast_S_S800000x2 : S_.BroadcastsInDim S800000x2 (![] : Fin 0 → Fin S800000x2.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  reducesTo_S800000x2_S800000_d1 : S800000x2.ReducesTo [1] S800000
  bcast_S800000x1_S800000x2_0_1 : S800000x1.BroadcastsInDim S800000x2 (![0, 1] : Fin 2 → Fin S800000x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  gather_S50000x2_S800000x1_S800000x2_1_0_n_n_0_1_12_wf : GatherDims.WF S50000x2 S800000x1 S800000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x2.size a ≤ S128x2.size a
  hwx1_7 : ∀ i : grid1.Coords, EltTy.bits .f32 = 32 ∨ (Rect.block (s := S128x2) S128x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S50000x2.size a
  hwx1_9 : ∀ i : grid1.Coords, EltTy.bits .f32 = 32 ∨ (Rect.block (s := S50000x2) S2000x2.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x2.size a ≤ S50000x2.size a
  hwx1_10 : ∀ i : grid1.Coords, EltTy.bits .f32 = 32 ∨ (Rect.block (s := S50000x2) S2000x2.size (cc1_transform_10 i) (hinb1_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S128x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v24_1) S2000x2.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v24_2) S2000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S800000x256 : Shape := ⟨2, ![800000, 256]⟩
abbrev S800000x2 : Shape := ⟨2, ![800000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S800000x256, .f32⟩
  | .hbm, ⟨101, _⟩ => ⟨S800000x2, .f32⟩
  | .hbm, ⟨102, _⟩ => ⟨S1x2, .f32⟩
  | .hbm, ⟨103, _⟩ => ⟨S800000x2, .f32⟩
  | .hbm, ⟨104, _⟩ => ⟨S800000x2, .f32⟩
  | .hbm, ⟨105, _⟩ => ⟨S_, .f32⟩
  | .hbm, ⟨106, _⟩ => ⟨S800000, .f32⟩
  | .hbm, ⟨107, _⟩ => ⟨S_, .f32⟩
  | .hbm, ⟨108, _⟩ => ⟨S800000, .f32⟩
  | .hbm, ⟨109, _⟩ => ⟨S800000, .f32⟩
  | .hbm, ⟨110, _⟩ => ⟨S800000x1, .f32⟩
  | .hbm, ⟨111, _⟩ => ⟨S800000x2, .f32⟩
  | .hbm, ⟨112, _⟩ => ⟨S800000x2, .f32⟩
  | .hbm, ⟨113, _⟩ => ⟨S800000x2, .f32⟩
  | .hbm, ⟨114, _⟩ => ⟨S_, .f32⟩
  | .hbm, ⟨115, _⟩ => ⟨S800000, .f32⟩
  | .hbm, ⟨116, _⟩ => ⟨S800000x1, .f32⟩
  | .hbm, ⟨117, _⟩ => ⟨S800000x1, .f32⟩
  | .hbm, ⟨118, _⟩ => ⟨S800000x2, .f32⟩
  | .hbm, ⟨119, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v75 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  reducesTo_S800000x2_S800000_d1 : S800000x2.ReducesTo [1] S800000
  h_S_ : 0 < S_.numel
  bcast_S800000x1_S800000x2_0_1 : S800000x1.BroadcastsInDim S800000x2 (![0, 1] : Fin 2 → Fin S800000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S800000x256_S256x2_S800000x2_1_0_0_1_n_n_wf : DotDims.WF S800000x256 S256x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibSage.lean ====
/-
  One mean-aggregation graph layer and the node-level edge projection, as functions on the extended reals, entry by
  entry over plain coordinates.

  Layer, entry (p, q):   max ( Σ_k (agg[p,k] · inv[p]) · Wl[k,q]  +  b[q]  +  Σ_k x[p,k] · Wr[k,q] ) 0 ,
  where  agg  holds the summed neighbour features,  inv  the reciprocal of the (clamped) in-degree,  x  the node's own
  features. A row of the result depends only on the same row of  agg ,  x  and  inv , so a block of rows of the result
  is the layer of the same block of rows of the inputs.

  Two spellings of it are read here: the vector dialect's (the quotient folded into a product with a reciprocal column,
  matrix-unit products into a zero accumulator, a row vector broadcast down the rows) and the host's (a quotient by the
  degree column broadcast in two steps, dot_general, the bias broadcast in two steps). They agree wherever the degree
  is not zero, since there  a / d = a · d⁻¹  and  1 / d = d⁻¹ .
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«412946_j89781996356214_2_alg».proof.Proof.LibMlp

noncomputable section

open Idealize.ShloMosaic Idealize.ShloMosaic.ValueIdx

namespace Cert.Sage

open Cert.Mlp (zero vec plain_sum bcast_row bcast_two row row_shapeCast)

/-- One layer, entry by entry. -/
def layer {N K H : ℕ} (agg x : (⟨2, ![N, K]⟩ : Shape).Idx → EReal) (inv : Fin N → EReal)
    (Wl Wr : (⟨2, ![K, H]⟩ : Shape).Idx → EReal) (b : Fin H → EReal) : (⟨2, ![N, H]⟩ : Shape).Idx → EReal := fun i =>
  max (((∑ k : Fin K, (agg (ix2 (i 0) k) * inv (i 0)) * Wl (ix2 k (i 1))) + b (i 1))
    + ∑ k : Fin K, x (ix2 (i 0) k) * Wr (ix2 k (i 1))) zero

/-- A plain matrix product, entry by entry: the node-level projection of the edge classifier. -/
def proj {N K H : ℕ} (h : (⟨2, ![N, K]⟩ : Shape).Idx → EReal) (W : (⟨2, ![K, H]⟩ : Shape).Idx → EReal) :
    (⟨2, ![N, H]⟩ : Shape).Idx → EReal := fun i => ∑ k : Fin K, h (ix2 (i 0) k) * W (ix2 k (i 1))

/-- A one-column matrix read as a vector of its entries. -/
def col {N : ℕ} (x : (⟨2, ![N, 1]⟩ : Shape).Idx → EReal) : Fin N → EReal := fun p => x (ix2 p 0)

/-- A layer reads only the row it is asked for. -/
theorem layer_row {N N' K H : ℕ} (agg x : (⟨2, ![N, K]⟩ : Shape).Idx → EReal) (agg' x' : (⟨2, ![N', K]⟩ : Shape).Idx → EReal)
    (inv : Fin N → EReal) (inv' : Fin N' → EReal) (Wl Wr : (⟨2, ![K, H]⟩ : Shape).Idx → EReal) (b : Fin H → EReal)
    (r : Fin N) (r' : Fin N') (q : Fin H)
    (ha : ∀ k : Fin K, agg (ix2 r k) = agg' (ix2 r' k)) (hx : ∀ k : Fin K, x (ix2 r k) = x' (ix2 r' k)) (hi : inv r = inv' r') :
    layer agg x inv Wl Wr b (ix2 r q) = layer agg' x' inv' Wl Wr b (ix2 r' q) := by
  show max (((∑ k : Fin K, (agg (ix2 r k) * inv r) * Wl (ix2 k q)) + b q) + ∑ k : Fin K, x (ix2 r k) * Wr (ix2 k q)) zero
    = max (((∑ k : Fin K, (agg' (ix2 r' k) * inv' r') * Wl (ix2 k q)) + b q) + ∑ k : Fin K, x' (ix2 r' k) * Wr (ix2 k q)) zero
  simp only [ha, hx, hi]

/-- A projection reads only the row it is asked for. -/
theorem proj_row {N N' K H : ℕ} (h : (⟨2, ![N, K]⟩ : Shape).Idx → EReal) (h' : (⟨2, ![N', K]⟩ : Shape).Idx → EReal)
    (W : (⟨2, ![K, H]⟩ : Shape).Idx → EReal) (r : Fin N) (r' : Fin N') (q : Fin H)
    (hh : ∀ k : Fin K, h (ix2 r k) = h' (ix2 r' k)) : proj h W (ix2 r q) = proj h' W (ix2 r' q) := by
  show (∑ k : Fin K, h (ix2 r k) * W (ix2 k q)) = ∑ k : Fin K, h' (ix2 r' k) * W (ix2 k q)
  simp only [hh]

/-! ## The quotient by a nonzero degree is the product with its reciprocal -/

/-- Off zero,  a · (1 / d) = a / d  on the extended reals: both are  a · d⁻¹ . -/
theorem mul_one_div (a d : EReal) (hd : d ≠ 0) : a * Ideal.div 1 d = Ideal.div a d := by
  unfold Ideal.div
  rw [if_neg hd, if_neg hd, one_mul]

/-- A degree clamped below by one is not zero. -/
theorem max_one_ne_zero (d : EReal) : max d 1 ≠ 0 :=
  (lt_of_lt_of_le zero_lt_one (le_max_right d 1)).ne'

/-! ## The vector dialect's spelling -/

/-- A column broadcast along the rows, read at (p, k), is its entry p. -/
theorem bcast_col {N K : ℕ} (hb : (⟨2, ![N, 1]⟩ : Shape).Broadcasts ⟨2, ![N, K]⟩) (x : (⟨2, ![N, 1]⟩ : Shape).Idx → EReal)
    (p : Fin N) (k : Fin K) : broadcastTo (⟨2, ![N, K]⟩ : Shape) x hb (ix2 p k) = x (ix2 p 0) := by
  refine broadcastTo_apply x hb (ix2 p k) (ix2 p 0) fun a => ?_
  match a with
  | ⟨0, _⟩ =>
    show p.val = if N = 1 then 0 else p.val
    split
    · rename_i h; have := p.isLt; omega
    · rfl
  | ⟨1, _⟩ => simp

/-- A matrix-unit product into a zero accumulator, entry (p, q): the sum over the middle coordinate. -/
theorem vec_matmul {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) (p : Fin N) (q : Fin H) :
    matmul d none a W (constant ⟨2, ![N, H]⟩ .f32 0x00000000#32) (ix2 p q) = ∑ k : Fin K, a (ix2 p k) * W (ix2 k q) := by
  subst hd
  rw [show matmul (DotDims.plain N K H) none a W (constant ⟨2, ![N, H]⟩ .f32 0x00000000#32) (ix2 p q) = _ from
    Ideal.matmul_constant_zero_apply (DotDims.plain N K H) none a W (ix2 p q)]
  exact plain_sum a W (ix2 p q)

/-- The projection as the vector dialect spells it. -/
theorem vec_proj {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) :
    matmul d none a W (constant ⟨2, ![N, H]⟩ .f32 0x00000000#32) = proj a W := by
  funext i
  obtain ⟨p, q, rfl⟩ : ∃ (p : Fin N) (q : Fin H), i = ix2 p q := ⟨i 0, i 1, eq_ix2 i⟩
  exact vec_matmul d hd a W p q

/-- The layer as the vector dialect spells it: the aggregate times the reciprocal column, two matrix-unit products,
    the bias row broadcast down the rows, the rectifier against a splat zero. -/
theorem vec_layer {N K H : ℕ} (d : DotDims ⟨2, ![N, K]⟩ ⟨2, ![K, H]⟩ ⟨2, ![N, H]⟩) (hd : d = DotDims.plain N K H)
    (hbi : (⟨2, ![N, 1]⟩ : Shape).Broadcasts ⟨2, ![N, K]⟩) (hsb : (⟨1, ![H]⟩ : Shape).ShapeCasts ⟨2, ![1, H]⟩)
    (hbb : (⟨2, ![1, H]⟩ : Shape).Broadcasts ⟨2, ![N, H]⟩) (hlt : FTy.bf16.bits < FTy.f32.bits)
    (a x : FVec Ideal ⟨2, ![N, K]⟩ .f32) (iv : FVec Ideal ⟨2, ![N, 1]⟩ .f32) (Wl Wr : FVec Ideal ⟨2, ![K, H]⟩ .f32)
    (b : FVec Ideal ⟨1, ![H]⟩ .f32) :
    maximumf (addf (addf (matmul d none (truncf .bf16 (mulf a (broadcastTo ⟨2, ![N, K]⟩ iv hbi)) hlt) (truncf .bf16 Wl hlt)
          (constant ⟨2, ![N, H]⟩ .f32 0x00000000#32)) (broadcastTo ⟨2, ![N, H]⟩ (shapeCast ⟨2, ![1, H]⟩ b hsb) hbb))
        (matmul d none (truncf .bf16 x hlt) (truncf .bf16 Wr hlt) (constant ⟨2, ![N, H]⟩ .f32 0x00000000#32)))
      (broadcast ⟨2, ![N, H]⟩ (Scalar.ofBits .f32 0x00000000#32))
    = layer a x (col iv) Wl Wr (vec b) := by
  funext i
  obtain ⟨p, q, rfl⟩ : ∃ (p : Fin N) (q : Fin H), i = ix2 p q := ⟨i 0, i 1, eq_ix2 i⟩
  simp only [maximumf_apply, addf_apply]
  rw [vec_matmul d hd _ _ p q, vec_matmul d hd _ _ p q, bcast_row hbb _ p q]
  have hb : shapeCast (⟨2, ![1, H]⟩ : Shape) b hsb (ix2 0 q) = vec b q := congrFun (row_shapeCast b hsb) q
  rw [hb]
  have e1 : ∀ k : Fin K, (truncf .bf16 (mulf a (broadcastTo ⟨2, ![N, K]⟩ iv hbi)) hlt : FVec Ideal ⟨2, ![N, K]⟩ .bf16) (ix2 p k)
      = a (ix2 p k) * col iv p := fun k => by
    show a (ix2 p k) * broadcastTo (⟨2, ![N, K]⟩ : Shape) iv hbi (ix2 p k) = _
    rw [bcast_col hbi iv p k]; rfl
  simp only [e1]
  rfl

/-! ## The host's spelling -/

/-- A vector made a column and then broadcast along the rows, read at (p, k), is its entry p. -/
theorem bcast_col_two {N K : ℕ} (g1 : (⟨1, ![N]⟩ : Shape).BroadcastsInDim ⟨2, ![N, 1]⟩ ![0])
    (g2 : (⟨2, ![N, 1]⟩ : Shape).BroadcastsInDim ⟨2, ![N, K]⟩ ![0, 1]) (x : (⟨1, ![N]⟩ : Shape).Idx → EReal) (p : Fin N) (k : Fin K) :
    broadcastInDim (⟨2, ![N, K]⟩ : Shape) ![0, 1] g2 (broadcastInDim (⟨2, ![N, 1]⟩ : Shape) ![0] g1 x) (ix2 p k) = x (ix1 p) := by
  refine (broadcastInDim_apply ![0, 1] g2 _ (ix2 p k) (ix2 p 0) fun a => ?_).trans
    (broadcastInDim_apply ![0] g1 x (ix2 p 0) (ix1 p) fun a => ?_)
  · match a with
    | ⟨0, _⟩ =>
      show p.val = if N = 1 then 0 else p.val
      split
      · rename_i h; have := p.isLt; omega
      · rfl
    | ⟨1, _⟩ => simp
  · match a with
    | ⟨0, _⟩ =>
      show p.val = if N = 1 then 0 else p.val
      split
      · rename_i h; have := p.isLt; omega
      · rfl

/-- The host's product, entry (p, q): the sum over the middle coordinate. -/
theorem host_matmul {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) (p : Fin N) (q : Fin H) :
    Host.dotGeneral d none a W (ix2 p q) = ∑ k : Fin K, a (ix2 p k) * W (ix2 k q) := by
  subst hd
  rw [show Host.dotGeneral (DotDims.plain N K H) none a W (ix2 p q) = _ from
    Ideal.dotGeneral_apply (DotDims.plain N K H) none .single a W (ix2 p q)]
  exact plain_sum a W (ix2 p q)

/-- The layer as the host spells it: the aggregate divided by the degree column, two dot_generals, the bias broadcast in
    two steps, the rectifier against a broadcast zero. Where the degree is nowhere zero it is the layer at the reciprocal
    of the degree. -/
theorem host_layer {N K H : ℕ} (d : DotDims ⟨2, ![N, K]⟩ ⟨2, ![K, H]⟩ ⟨2, ![N, H]⟩) (hd : d = DotDims.plain N K H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (g1 : (⟨1, ![N]⟩ : Shape).BroadcastsInDim ⟨2, ![N, 1]⟩ ![0])
    (g2 : (⟨2, ![N, 1]⟩ : Shape).BroadcastsInDim ⟨2, ![N, K]⟩ ![0, 1])
    (a x : FVec Ideal ⟨2, ![N, K]⟩ .f32) (dm : FVec Ideal ⟨1, ![N]⟩ .f32) (Wl Wr : FVec Ideal ⟨2, ![K, H]⟩ .f32)
    (b : FVec Ideal ⟨1, ![H]⟩ .f32) (hdm : ∀ p : Fin N, dm (ix1 p) ≠ 0) :
    maximumf (addf (addf (Host.dotGeneral d none (Host.divf a
            (broadcastInDim (⟨2, ![N, K]⟩ : Shape) ![0, 1] g2 (broadcastInDim (⟨2, ![N, 1]⟩ : Shape) ![0] g1 dm))) Wl)
          (broadcastInDim (⟨2, ![N, H]⟩ : Shape) ![0, 1] h2 (broadcastInDim (⟨2, ![1, H]⟩ : Shape) ![1] h1 b)))
        (Host.dotGeneral d none x Wr))
      (broadcastInDim (⟨2, ![N, H]⟩ : Shape) ![] h0 (constant (⟨0, ![]⟩ : Shape) .f32 0x00000000#32))
    = layer a x (fun p => Ideal.div 1 (dm (ix1 p))) Wl Wr (vec b) := by
  funext i
  obtain ⟨p, q, rfl⟩ : ∃ (p : Fin N) (q : Fin H), i = ix2 p q := ⟨i 0, i 1, eq_ix2 i⟩
  simp only [maximumf_apply, addf_apply]
  rw [host_matmul d hd _ _ p q, host_matmul d hd _ _ p q, bcast_two h1 h2 b p q]
  have e1 : ∀ k : Fin K, Host.divf a (broadcastInDim (⟨2, ![N, K]⟩ : Shape) ![0, 1] g2
      (broadcastInDim (⟨2, ![N, 1]⟩ : Shape) ![0] g1 dm)) (ix2 p k) = a (ix2 p k) * Ideal.div 1 (dm (ix1 p)) := fun k => by
    rw [hostDivf_apply, bcast_col_two g1 g2 dm p k, mul_one_div _ _ (hdm p)]
  simp only [e1]
  rfl

end Cert.Sage

end
-- ==== Proof.KTerm.lean ====
/-
  The kernel program's value, named piece by piece, in the program's own spelling.

  From the edge list  ei  (row 0 the source of each edge, row 1 its target): the in-degree of every node clamped below
  by one, and its reciprocal as a column; a table's rows taken at an index vector (negative indices counted from the
  end, rows outside the table filled with a not-a-number pattern); the neighbour sum of a feature table (rows taken at
  the sources, added up at the targets). Two layers of LibSage.lean's  layer  over these, the second layer projected on
  the two halves of the classifier's weight at the nodes, the two projections taken at the sources and at the targets
  and added with the bias, and the logarithm of the softmax of each edge's pair of scores.
-/
import proofs.«412946_j89781996356214_2_alg».proof.Proof.Gen.KernelIdeal
import proofs.«412946_j89781996356214_2_alg».proof.Proof.LibSage

noncomputable section

namespace Cert.KernelIdeal.Term

open Idealize.ShloMosaic Idealize.ShloMosaic.TcCoe
open Cert.KernelIdeal Cert.KernelIdeal.Facts₀ Cert.KernelIdeal.Facts

variable {F : FTy → Type} [FloatOps F]

/-- The sources of the edges: row 0 of the edge list. -/
def src (ei : IVec S2x800000 32) : IVec S800000 32 :=
  shapeCast S800000 (extractStridedSlice S1x800000 ![0, 0] ei slices_S2x800000_S1x800000_0_0) shapeCasts_S1x800000_S800000
/-- The targets of the edges: row 1 of the edge list. -/
def dst (ei : IVec S2x800000 32) : IVec S800000 32 :=
  shapeCast S800000 (extractStridedSlice S1x800000 ![1, 0] ei slices_S2x800000_S1x800000_1_0) shapeCasts_S1x800000_S800000

/-- An index vector with negative entries counted from the end of a 50000-row table, as a column. -/
def wrapc (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The bit "the wrapped index lies in [0, 49999]", per entry. -/
def inRange (idx : IVec S800000 32) : IVec S800000 1 :=
  Host.reduce IntOp.andi
    (andi (cmpi .sge (wrapc idx) (broadcastInDim S800000x1 ![] bcast_S_S800000x1 (constantI S_ 32 0#32)))
      (cmpi .sle (wrapc idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of a 128-column table at an index vector, a fill pattern where the index is out of range. -/
def takeRows (A : Vec F S50000x128 .f32) (idx : IVec S800000 32) : Vec F S800000x128 .f32 :=
  select (broadcastInDim S800000x128 ![0] bcast_S800000_S800000x128_0 (inRange idx))
    (Host.gather gather_S50000x128_S800000x1_S800000x128_1_0_n_n_0_1_1128 A (wrapc idx))
    (broadcastInDim S800000x128 ![] bcast_S_S800000x128 (constant S_ .f32 0x7FC00000#32))

/-- Rows of a 2-column table at an index vector, the same way. -/
def takePair (A : Vec F S50000x2 .f32) (idx : IVec S800000 32) : Vec F S800000x2 .f32 :=
  select (broadcastInDim S800000x2 ![0] bcast_S800000_S800000x2_0 (inRange idx))
    (Host.gather gather_S50000x2_S800000x1_S800000x2_1_0_n_n_0_1_12 A (wrapc idx))
    (broadcastInDim S800000x2 ![] bcast_S_S800000x2 (constant S_ .f32 0x7FC00000#32))

/-- The in-degree of every node (ones added up at the targets), clamped below by one. -/
def dmax (ei : IVec S2x800000 32) : Vec F S50000 .f32 :=
  maximumf (Host.scatterAdd scatter_S50000_S800000x1_S800000_n_0_0_1
      (broadcastInDim S50000 ![] bcast_S_S50000 (constant S_ .f32 0x00000000#32))
      (broadcastInDim S800000x1 ![0] bcast_S800000_S800000x1_0 (dst ei))
      (broadcastInDim S800000 ![] bcast_S_S800000 (constant S_ .f32 0x3F800000#32)))
    (broadcastInDim S50000 ![] bcast_S_S50000 (constant S_ .f32 0x3F800000#32))

/-- Its reciprocal, as a column. -/
def inv (ei : IVec S2x800000 32) : Vec F S50000x1 .f32 :=
  shapeCast S50000x1 (Host.divf (broadcastInDim S50000 ![] bcast_S_S50000 (constant S_ .f32 0x3F800000#32)) (dmax (F := F) ei))
    shapeCasts_S50000_S50000x1

/-- The neighbour sum of a feature table: its rows at the sources, added up at the targets. -/
def agg (A : Vec F S50000x128 .f32) (ei : IVec S2x800000 32) : Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst ei))
    (takeRows A (src ei))

/-- The first and the second half of the classifier's weight. -/
def wTop (Wfc : Vec F S256x2 .f32) : Vec F S128x2 .f32 := extractStridedSlice S128x2 ![0, 0] Wfc slices_S256x2_S128x2_0_0
def wBot (Wfc : Vec F S256x2 .f32) : Vec F S128x2 .f32 := extractStridedSlice S128x2 ![128, 0] Wfc slices_S256x2_S128x2_128_0

/-- An edge's scores: the source-side projection at its source plus the target-side one at its target plus the bias. -/
def scores (ssrc sdst : Vec F S50000x2 .f32) (ei : IVec S2x800000 32) (bfc : Vec F S2 .f32) : Vec F S800000x2 .f32 :=
  addf (addf (takePair ssrc (src ei)) (takePair sdst (dst ei)))
    (broadcastInDim S800000x2 ![0, 1] bcast_S1x2_S800000x2_0_1 (broadcastInDim S1x2 ![1] bcast_S2_S1x2_1 bfc))

/-- The logarithm of the softmax along each row: s - max - log Σ exp (s - max). -/
def lsm (s : Vec F S800000x2 .f32) : Vec F S800000x2 .f32 :=
  subf
    (subf s (broadcastInDim S800000x2 ![0, 1] bcast_S800000x1_S800000x2_0_1 (broadcastInDim S800000x1 ![0] bcast_S800000_S800000x1_0
      (maximumf (broadcastInDim S800000 ![] bcast_S_S800000 (constant S_ .f32 0xFF800000#32))
        (Host.reduce FloatOps.maximumf s (constant S_ .f32 0xFF800000#32) reducesTo_S800000x2_S800000_d1 h_S_)))))
    (broadcastInDim S800000x2 ![0, 1] bcast_S800000x1_S800000x2_0_1 (Host.log (broadcastInDim S800000x1 ![0] bcast_S800000_S800000x1_0
      (Host.reduceAdd (Host.exp
        (subf s (broadcastInDim S800000x2 ![0, 1] bcast_S800000x1_S800000x2_0_1 (broadcastInDim S800000x1 ![0] bcast_S800000_S800000x1_0
          (maximumf (broadcastInDim S800000 ![] bcast_S_S800000 (constant S_ .f32 0xFF800000#32))
            (Host.reduce FloatOps.maximumf s (constant S_ .f32 0xFF800000#32) reducesTo_S800000x2_S800000_d1 h_S_))))))
        (constant S_ .f32 0x00000000#32) reducesTo_S800000x2_S800000_d1 h_S_))))

/-! ## The two layers and the result, on the extended reals -/

/-- The first layer's output. -/
def h1 (x : Vec Ideal S50000x128 .f32) (ei : IVec S2x800000 32) (W1l : Vec Ideal S128x128 .f32) (b1 : Vec Ideal S128 .f32)
    (W1r : Vec Ideal S128x128 .f32) : Vec Ideal S50000x128 .f32 :=
  Sage.layer (agg x ei) x (Sage.col (inv (F := Ideal) ei)) W1l W1r (Mlp.vec b1)

/-- The second layer's output. -/
def h2 (x : Vec Ideal S50000x128 .f32) (ei : IVec S2x800000 32) (W1l : Vec Ideal S128x128 .f32) (b1 : Vec Ideal S128 .f32)
    (W1r W2l : Vec Ideal S128x128 .f32) (b2 : Vec Ideal S128 .f32) (W2r : Vec Ideal S128x128 .f32) : Vec Ideal S50000x128 .f32 :=
  Sage.layer (agg (h1 x ei W1l b1 W1r) ei) (h1 x ei W1l b1 W1r) (Sage.col (inv (F := Ideal) ei)) W2l W2r (Mlp.vec b2)

/-- The program's result. -/
def result (x : Vec Ideal S50000x128 .f32) (ei : IVec S2x800000 32) (W1l : Vec Ideal S128x128 .f32) (b1 : Vec Ideal S128 .f32)
    (W1r W2l : Vec Ideal S128x128 .f32) (b2 : Vec Ideal S128 .f32) (W2r : Vec Ideal S128x128 .f32) (Wfc : Vec Ideal S256x2 .f32)
    (bfc : Vec Ideal S2 .f32) : Vec Ideal S800000x2 .f32 :=
  lsm (scores (Sage.proj (h2 x ei W1l b1 W1r W2l b2 W2r) (wTop Wfc)) (Sage.proj (h2 x ei W1l b1 W1r W2l b2 W2r) (wBot Wfc)) ei bfc)

end Cert.KernelIdeal.Term

end
-- ==== Proof.Region0.lean ====
/-
  The first layer's pallas region, read as a value. The grid has 10 points; point t works on rows
  [5000·t, 5000·t + 5000) of the aggregate, of the reciprocal-degree column and of the node features, with both weight
  matrices and the bias taken whole, and writes the same rows of the output. Its body is the layer of LibSage.lean on
  those blocks (the vector dialect's spelling), and a row of a layer depends only on the same row of its row-indexed
  inputs, so point t writes back rows [5000·t, 5000·t + 5000) of the layer of the WHOLE arrays. The 10 blocks tile the
  50000 rows, hence the output array after the region is that layer, entry by entry.
-/
import proofs.«412946_j89781996356214_2_alg».proof.Proof.Gen.KernelIdeal.Frame
import proofs.«412946_j89781996356214_2_alg».proof.Proof.LibSage
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the layer of its loaded blocks. -/
theorem pay_eq (v0 : Vec Ideal S5000x128 .f32) (v2 : Vec Ideal S5000x1 .f32) (v7 : Vec Ideal S5000x128 .f32)
    (v9 v11 : Vec Ideal S128x128 .f32) (v14 : Vec Ideal S128 .f32) :
    k0_pay1 v0 v2 v7 v9 v11 v14 = Sage.layer v0 v7 (Sage.col v2) v9 v11 (Mlp.vec v14) := by
  unfold k0_pay1
  simp only [shapeCast_self]
  exact Sage.vec_layer dot_S5000x128_S128x128_S5000x128_1_0_0_1_n_n rfl broadcasts_S5000x1_S5000x128
    shapeCasts_S128_S1x128 broadcasts_S1x128_S5000x128 bitsLt_bf16_f32 v0 v7 v2 v9 v11 v14

/-- The output array after the region: the layer of the arrays the region finds. -/
abbrev G6 (c : Dev nD) : S50000x128.Idx → EReal :=
  Sage.layer (V c main_v16) (V c main_arg0) (Sage.col (V c main_v12)) (V c main_arg2) (V c main_arg4) (Mlp.vec (V c main_arg3))

/-- The printed index maps over the grid: the row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 5000) : t.val * 5000 + p.val < 50000 := by
  have h := t.isLt; have hN : cfg0.N = 10 := N_0; have := p.isLt; omega

/-- Block t of the aggregate: rows 5000·t + p. -/
theorem blk0_apply (c : Dev nD) (t : Fin cfg0.N) (p : Fin 5000) (k : Fin 128) :
    iblk0 V c 0 t (ix2 p k) = V c main_v16 (ix2 ⟨t.val * 5000 + p.val, row_lt t p⟩ k) := by
  obtain ⟨e0, e1, -⟩ := idx_facts t
  show V c main_v16 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block t of the reciprocal-degree column. -/
theorem blk1_apply (c : Dev nD) (t : Fin cfg0.N) (p : Fin 5000) :
    iblk0 V c 1 t (ix2 p 0) = V c main_v12 (ix2 ⟨t.val * 5000 + p.val, row_lt t p⟩ 0) := by
  obtain ⟨-, -, e0, e1, -⟩ := idx_facts t
  show V c main_v12 (((cfg0.win 1).blk t).view.emb (ix2 p 0)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

/-- Block t of the node features. -/
theorem blk2_apply (c : Dev nD) (t : Fin cfg0.N) (p : Fin 5000) (k : Fin 128) :
    iblk0 V c 2 t (ix2 p k) = V c main_arg0 (ix2 ⟨t.val * 5000 + p.val, row_lt t p⟩ k) := by
  obtain ⟨-, -, -, -, e0, e1, -⟩ := idx_facts t
  show V c main_arg0 (((cfg0.win 2).blk t).view.emb (ix2 p k)) = _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega

/-- The neighbour weight is taken whole. -/
theorem blk3_eq (c : Dev nD) (t : Fin cfg0.N) : iblk0 V c 3 t = V c main_arg2 := by
  obtain ⟨-, -, -, -, -, -, e0, e1, -⟩ := idx_facts t
  funext y
  show V c main_arg2 (((cfg0.win 3).blk t).view.emb y) = V c main_arg2 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias is taken whole. -/
theorem blk4_eq (c : Dev nD) (t : Fin cfg0.N) : iblk0 V c 4 t = V c main_arg3 := by
  obtain ⟨-, -, -, -, -, -, -, -, e0, -⟩ := idx_facts t
  funext y
  show V c main_arg3 (((cfg0.win 4).blk t).view.emb y) = V c main_arg3 y
  refine congrArg _ (funext fun a => Fin.ext ?_)
  match a with
  | ⟨0, _⟩ => show win0_4.index t (0 : Fin 1) * 128 + 1 * (y 0).val = (y 0).val; omega

/-- The root weight is taken whole. -/
theorem blk5_eq (c : Dev nD) (t : Fin cfg0.N) : iblk0 V c 5 t = V c main_arg4 := by
  obtain ⟨-, -, -, -, -, -, -, -, -, e0, e1, -⟩ := idx_facts t
  funext y
  show V c main_arg4 (((cfg0.win 5).blk t).view.emb y) = V c main_arg4 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- WHAT POINT t WRITES BACK: rows [5000·t, 5000·t + 5000) of the layer of the whole arrays. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  rw [pay_eq, blk3_eq, blk4_eq, blk5_eq]
  obtain ⟨-, -, -, -, -, -, -, -, -, -, -, e0, e1⟩ := idx_facts t
  funext j
  obtain ⟨p, q, rfl⟩ : ∃ (p : Fin 5000) (q : Fin 128), j = ix2 p q := ⟨j 0, j 1, eq_ix2 j⟩
  refine (Sage.layer_row _ _ (V c main_v16) (V c main_arg0) _ (Sage.col (V c main_v12)) _ _ _ p
    ⟨t.val * 5000 + p.val, row_lt t p⟩ q (fun k => blk0_apply V c t p k) (fun k => blk2_apply V c t p k)
    (blk1_apply V c t p)).trans ?_
  show G6 V c (ix2 ⟨t.val * 5000 + p.val, row_lt t p⟩ q) = G6 V c (((cfg0.win 6).blk t).view.emb (ix2 p q))
  refine congrArg _ (funext fun a => Fin.ext ?_)
  match a with
  | ⟨0, _⟩ => show t.val * 5000 + p.val = win0_6.index t (0 : Fin 2) * 5000 + 1 * p.val; omega
  | ⟨1, _⟩ => show q.val = win0_6.index t (1 : Fin 2) * 128 + 1 * q.val; omega

/-- An index of the array is in point t's block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v17).slice (win0_6.rect t)).set ↔ _
  rw [View.set_slice_whole, Rect.mem_set_unit]
  exact Iff.rfl

/-- The blocks tile the array: row r is in the block of point r / 5000. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, e0, e1⟩ := idx_facts t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the region is the layer of the arrays the region finds. -/
theorem final6 (c : Dev nD) : (dat0 V c).arrAt 6 cfg0.N = G6 V c :=
  (dat0 V c).arrAt_eq_of_cover 6 (G6 V c) (fun t _ => flushed6_eq V c t) (cover6)

end Cert.KernelIdeal.Region0

end
-- ==== Proof.Region1.lean ====
/-
  The second layer's pallas region, read as a value. The grid has 25 points; point t works on rows
  [2000·t, 2000·t + 2000) of the aggregate, of the reciprocal-degree column and of the first layer's output, with the two
  weight matrices, the bias and the two halves of the classifier's weight taken whole. It writes three outputs on the
  same rows: the layer itself, and the layer's block times each half of the classifier's weight (the edge classifier
  projected at the nodes). A row of each depends only on the same row of the row-indexed inputs, so point t writes back
  rows [2000·t, 2000·t + 2000) of the layer, and of its two projections, of the WHOLE arrays; 25 blocks tile the 50000
  rows.
-/
import proofs.«412946_j89781996356214_2_alg».proof.Proof.Gen.KernelIdeal.Frame
import proofs.«412946_j89781996356214_2_alg».proof.Proof.LibSage
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's layer arithmetic is the layer of its loaded blocks. -/
theorem pay2_eq (v0 : Vec Ideal S2000x128 .f32) (v2 : Vec Ideal S2000x1 .f32) (v7 : Vec Ideal S2000x128 .f32)
    (v10 v12 : Vec Ideal S128x128 .f32) (v15 : Vec Ideal S128 .f32) :
    k1_pay2 v0 v2 v7 v10 v12 v15 = Sage.layer v0 v7 (Sage.col v2) v10 v12 (Mlp.vec v15) := by
  unfold k1_pay2
  simp only [shapeCast_self]
  exact Sage.vec_layer dot_S2000x128_S128x128_S2000x128_1_0_0_1_n_n rfl broadcasts_S2000x1_S2000x128
    shapeCasts_S128_S1x128 broadcasts_S1x128_S2000x128 bitsLt_bf16_f32 v0 v7 v2 v10 v12 v15

/-- The source-side projection: the layer's block times the first half of the classifier's weight. -/
theorem pay5_eq (v0 : Vec Ideal S2000x128 .f32) (v2 : Vec Ideal S2000x1 .f32) (v7 : Vec Ideal S2000x128 .f32)
    (v10 v12 : Vec Ideal S128x128 .f32) (v15 : Vec Ideal S128 .f32) (v25 : Vec Ideal S128x2 .f32) :
    k1_pay5 v0 v2 v7 v10 v12 v15 v25 = Sage.proj (Sage.layer v0 v7 (Sage.col v2) v10 v12 (Mlp.vec v15)) v25 := by
  unfold k1_pay5 k1_pay3
  simp only [shapeCast_self]
  rw [Sage.vec_proj dot_S2000x128_S128x2_S2000x2_1_0_0_1_n_n rfl, pay2_eq]
  rfl

/-- The target-side projection: the layer's block times the second half of the classifier's weight. -/
theorem pay1_eq (v0 : Vec Ideal S2000x128 .f32) (v2 : Vec Ideal S2000x1 .f32) (v7 : Vec Ideal S2000x128 .f32)
    (v10 v12 : Vec Ideal S128x128 .f32) (v15 : Vec Ideal S128 .f32) (v28 : Vec Ideal S128x2 .f32) :
    k1_pay1 (k1_pay3 v0 v2 v7 v10 v12 v15) (k1_pay4 v28) (constant S2000x2 .f32 0x00000000#32)
      = Sage.proj (Sage.layer v0 v7 (Sage.col v2) v10 v12 (Mlp.vec v15)) v28 := by
  unfold k1_pay1 k1_pay3 k1_pay4
  simp only [shapeCast_self]
  rw [Sage.vec_proj dot_S2000x128_S128x2_S2000x2_1_0_0_1_n_n rfl, pay2_eq]
  rfl

/-- The layer of the arrays the region finds. -/
abbrev G8 (c : Dev nD) : S50000x128.Idx → EReal :=
  Sage.layer (V c main_v21) (V c main_v17) (Sage.col (V c main_v12)) (V c main_arg5) (V c main_arg7) (Mlp.vec (V c main_arg6))
/-- Its projection on the first half of the classifier's weight. -/
abbrev G9 (c : Dev nD) : S50000x2.Idx → EReal := Sage.proj (G8 V c) (V c main_v22)
/-- Its projection on the second half. -/
abbrev G10 (c : Dev nD) : S50000x2.Idx → EReal := Sage.proj (G8 V c) (V c main_v23)

/-- The printed index maps over the grid: the row-blocked windows sit at block row t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

theorem row_lt (t : Fin cfg1.N) (p : Fin 2000) : t.val * 2000 + p.val < 50000 := by
  have h := t.isLt; have hN : cfg1.N = 25 := N_1; have := p.isLt; omega

/-- Block t of the aggregate: rows 2000·t + p. -/
theorem blk0_apply (c : Dev nD) (t : Fin cfg1.N) (p : Fin 2000) (k : Fin 128) :
    iblk1 V c 0 t (ix2 p k) = V c main_v21 (ix2 ⟨t.val * 2000 + p.val, row_lt t p⟩ k) := by
  obtain ⟨e0, e1, -⟩ := idx_facts t
  show V c main_v21 (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- Block t of the reciprocal-degree column. -/
theorem blk1_apply (c : Dev nD) (t : Fin cfg1.N) (p : Fin 2000) :
    iblk1 V c 1 t (ix2 p 0) = V c main_v12 (ix2 ⟨t.val * 2000 + p.val, row_lt t p⟩ 0) := by
  obtain ⟨-, -, e0, e1, -⟩ := idx_facts t
  show V c main_v12 (((cfg1.win 1).blk t).view.emb (ix2 p 0)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

/-- Block t of the first layer's output. -/
theorem blk2_apply (c : Dev nD) (t : Fin cfg1.N) (p : Fin 2000) (k : Fin 128) :
    iblk1 V c 2 t (ix2 p k) = V c main_v17 (ix2 ⟨t.val * 2000 + p.val, row_lt t p⟩ k) := by
  obtain ⟨-, -, -, -, e0, e1, -⟩ := idx_facts t
  show V c main_v17 (((cfg1.win 2).blk t).view.emb (ix2 p k)) = _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega

/-- The neighbour weight is taken whole. -/
theorem blk3_eq (c : Dev nD) (t : Fin cfg1.N) : iblk1 V c 3 t = V c main_arg5 := by
  obtain ⟨-, -, -, -, -, -, e0, e1, -⟩ := idx_facts t
  funext y
  show V c main_arg5 (((cfg1.win 3).blk t).view.emb y) = V c main_arg5 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias is taken whole. -/
theorem blk4_eq (c : Dev nD) (t : Fin cfg1.N) : iblk1 V c 4 t = V c main_arg6 := by
  obtain ⟨-, -, -, -, -, -, -, -, e0, -⟩ := idx_facts t
  funext y
  show V c main_arg6 (((cfg1.win 4).blk t).view.emb y) = V c main_arg6 y
  refine congrArg _ (funext fun a => Fin.ext ?_)
  match a with
  | ⟨0, _⟩ => show win1_4.index t (0 : Fin 1) * 128 + 1 * (y 0).val = (y 0).val; omega

/-- The root weight is taken whole. -/
theorem blk5_eq (c : Dev nD) (t : Fin cfg1.N) : iblk1 V c 5 t = V c main_arg7 := by
  obtain ⟨-, -, -, -, -, -, -, -, -, e0, e1, -⟩ := idx_facts t
  funext y
  show V c main_arg7 (((cfg1.win 5).blk t).view.emb y) = V c main_arg7 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The first half of the classifier's weight is taken whole. -/
theorem blk6_eq (c : Dev nD) (t : Fin cfg1.N) : iblk1 V c 6 t = V c main_v22 := by
  obtain ⟨-, -, -, -, -, -, -, -, -, -, -, e0, e1, -⟩ := idx_facts t
  funext y
  show V c main_v22 (((cfg1.win 6).blk t).view.emb y) = V c main_v22 y
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 2 + 1 * (y 1).val = (y 1).val; omega

/-- The second half of the classifier's weight is taken whole. -/
theorem blk7_eq (c : Dev nD) (t : Fin cfg1.N) : iblk1 V c 7 t = V c main_v23 := by
  obtain ⟨-, -, -, -, -, -, -, -, -, -, -, -, -, e0, e1, -⟩ := idx_facts t
  funext y
  show V c main_v23 (((cfg1.win 7).blk t).view.emb y) = V c main_v23 y
  refine congrArg _ (funext fun a => Fin.ext ?_)
  match a with
  | ⟨0, _⟩ => show win1_7.index t (0 : Fin 2) * 128 + 1 * (y 0).val = (y 0).val; omega
  | ⟨1, _⟩ => show win1_7.index t (1 : Fin 2) * 2 + 1 * (y 1).val = (y 1).val; omega

/-- Row p of the layer of point t's blocks is row 2000·t + p of the layer of the whole arrays. -/
theorem layer_blk (c : Dev nD) (t : Fin cfg1.N) (p : Fin 2000) (q : Fin 128) :
    Sage.layer (iblk1 V c 0 t) (iblk1 V c 2 t) (Sage.col (iblk1 V c 1 t)) (V c main_arg5) (V c main_arg7) (Mlp.vec (V c main_arg6)) (ix2 p q)
      = G8 V c (ix2 ⟨t.val * 2000 + p.val, row_lt t p⟩ q) :=
  Sage.layer_row _ _ (V c main_v21) (V c main_v17) _ (Sage.col (V c main_v12)) _ _ _ p
    ⟨t.val * 2000 + p.val, row_lt t p⟩ q (fun k => blk0_apply V c t p k) (fun k => blk2_apply V c t p k) (blk1_apply V c t p)

/-- WHAT POINT t WRITES BACK to the layer's array: rows [2000·t, 2000·t + 2000) of the layer of the whole arrays. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz2]
  simp only [View.ld_unit_zero (S := S2000x128) hz2, View.ld_unit_zero (S := S2000x1) hz2,
    View.ld_unit_zero (S := S128x128) hz2, View.ld_unit_zero (S := S128) hz1]
  rw [pay2_eq, blk3_eq, blk4_eq, blk5_eq]
  obtain ⟨-, -, -, -, -, -, -, -, -, -, -, -, -, -, -, e0, e1, -⟩ := idx_facts t
  funext j
  obtain ⟨p, q, rfl⟩ : ∃ (p : Fin 2000) (q : Fin 128), j = ix2 p q := ⟨j 0, j 1, eq_ix2 j⟩
  refine (layer_blk V c t p q).trans ?_
  show G8 V c (ix2 ⟨t.val * 2000 + p.val, row_lt t p⟩ q) = G8 V c (((cfg1.win 8).blk t).view.emb (ix2 p q))
  refine congrArg _ (funext fun a => Fin.ext ?_)
  match a with
  | ⟨0, _⟩ => show t.val * 2000 + p.val = win1_8.index t (0 : Fin 2) * 2000 + 1 * p.val; omega
  | ⟨1, _⟩ => show q.val = win1_8.index t (1 : Fin 2) * 128 + 1 * q.val; omega

/-- WHAT POINT t WRITES BACK to the source-side scores: the same rows of the projection on the first half. -/
theorem flushed9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S2000x1) hz2,
    View.ld_unit_zero (S := S128x128) hz2, View.ld_unit_zero (S := S128) hz1, View.ld_unit_zero (S := S128x2) hz2]
  rw [pay5_eq, blk3_eq, blk4_eq, blk5_eq, blk6_eq]
  obtain ⟨-, -, -, -, -, -, -, -, -, -, -, -, -, -, -, -, -, e0, e1, -⟩ := idx_facts t
  funext j
  obtain ⟨p, q, rfl⟩ : ∃ (p : Fin 2000) (q : Fin 2), j = ix2 p q := ⟨j 0, j 1, eq_ix2 j⟩
  refine (Sage.proj_row _ (G8 V c) (V c main_v22) p ⟨t.val * 2000 + p.val, row_lt t p⟩ q
    (fun k => layer_blk V c t p k)).trans ?_
  show G9 V c (ix2 ⟨t.val * 2000 + p.val, row_lt t p⟩ q) = G9 V c (((cfg1.win 9).blk t).view.emb (ix2 p q))
  refine congrArg _ (funext fun a => Fin.ext ?_)
  match a with
  | ⟨0, _⟩ => show t.val * 2000 + p.val = win1_9.index t (0 : Fin 2) * 2000 + 1 * p.val; omega
  | ⟨1, _⟩ => show q.val = win1_9.index t (1 : Fin 2) * 2 + 1 * q.val; omega

/-- WHAT POINT t WRITES BACK to the target-side scores: the same rows of the projection on the second half. -/
theorem flushed10_eq (c : Dev nD) (t : Fin cfg1.N) :
    (dat1 V c).flushed 10 t = ((cfg1.win 10).blk t).view.read (Elt Ideal) (G10 V c) := by
  show (cfg1.win 10).cut (grid1.coords t) ((dat1 V c).after 10 t) = _
  rw [after1_10]
  unfold out1_10
  rw [View.canon_unit_zero hz2]
  simp only [View.ld_unit_zero (S := S2000x128) hz2, View.ld_unit_zero (S := S2000x1) hz2,
    View.ld_unit_zero (S := S128x128) hz2, View.ld_unit_zero (S := S128) hz1, View.ld_unit_zero (S := S128x2) hz2]
  rw [pay1_eq, blk3_eq, blk4_eq, blk5_eq, blk7_eq]
  obtain ⟨-, -, -, -, -, -, -, -, -, -, -, -, -, -, -, -, -, -, -, e0, e1⟩ := idx_facts t
  funext j
  obtain ⟨p, q, rfl⟩ : ∃ (p : Fin 2000) (q : Fin 2), j = ix2 p q := ⟨j 0, j 1, eq_ix2 j⟩
  refine (Sage.proj_row _ (G8 V c) (V c main_v23) p ⟨t.val * 2000 + p.val, row_lt t p⟩ q
    (fun k => layer_blk V c t p k)).trans ?_
  show G10 V c (ix2 ⟨t.val * 2000 + p.val, row_lt t p⟩ q) = G10 V c (((cfg1.win 10).blk t).view.emb (ix2 p q))
  refine congrArg _ (funext fun a => Fin.ext ?_)
  match a with
  | ⟨0, _⟩ => show t.val * 2000 + p.val = win1_10.index t (0 : Fin 2) * 2000 + 1 * p.val; omega
  | ⟨1, _⟩ => show q.val = win1_10.index t (1 : Fin 2) * 2 + 1 * q.val; omega

/-! ## The blocks tile each output array: row r is in the block of point r / 2000 -/

theorem mem_blk8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v24_0).slice (win1_8.rect t)).set ↔ _
  rw [View.set_slice_whole, Rect.mem_set_unit]
  exact Iff.rfl

theorem mem_blk9 (t : Fin cfg1.N) (i : S50000x2.Idx) :
    i ∈ ((cfg1.win 9).blk t).view.set ↔ ∀ a : Fin 2, win1_9.index t a * S2000x2.size a ≤ (i a).val
      ∧ (i a).val < win1_9.index t a * S2000x2.size a + S2000x2.size a := by
  show i ∈ ((View.whole main_v24_1).slice (win1_9.rect t)).set ↔ _
  rw [View.set_slice_whole, Rect.mem_set_unit]
  exact Iff.rfl

theorem mem_blk10 (t : Fin cfg1.N) (i : S50000x2.Idx) :
    i ∈ ((cfg1.win 10).blk t).view.set ↔ ∀ a : Fin 2, win1_10.index t a * S2000x2.size a ≤ (i a).val
      ∧ (i a).val < win1_10.index t a * S2000x2.size a + S2000x2.size a := by
  show i ∈ ((View.whole main_v24_2).slice (win1_10.rect t)).set ↔ _
  rw [View.set_slice_whole, Rect.mem_set_unit]
  exact Iff.rfl

theorem cover8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, -, -, -, -, -, e0, e1, -⟩ := idx_facts t
  have ht : t.val = (i 0).val / 2000 := rfl
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

theorem cover9 (i : S50000x2.Idx) : ∃ t : Fin cfg1.N, (cfg1.win 9).flush t = true ∧ i ∈ ((cfg1.win 9).blk t).view.set := by
  have hi0 : (i 0).val < 50000 := (i 0).isLt
  have hi1 : (i 1).val < 2 := (i 1).isLt
  have hN : cfg1.N = 25 := N_1
  let t : Fin cfg1.N := ⟨(i 0).val / 2000, by rw [hN]; omega⟩
  obtain ⟨-, -, -, -, -, -, -, -, -, -, -, -, -, -, -, -, -, e0, e1, -⟩ := idx_facts t
  have ht : t.val = (i 0).val / 2000 := rfl
  refine ⟨t, flush1_9 t, ?_⟩
  rw [mem_blk9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 2 ≤ (i 1).val ∧ (i 1).val < win1_9.index t (1 : Fin 2) * 2 + 2; omega

theorem cover10 (i : S50000x2.Idx) : ∃ t : Fin cfg1.N, (cfg1.win 10).flush t = true ∧ i ∈ ((cfg1.win 10).blk t).view.set := by
  have hi0 : (i 0).val < 50000 := (i 0).isLt
  have hi1 : (i 1).val < 2 := (i 1).isLt
  have hN : cfg1.N = 25 := N_1
  let t : Fin cfg1.N := ⟨(i 0).val / 2000, by rw [hN]; omega⟩
  obtain ⟨-, -, -, -, -, -, -, -, -, -, -, -, -, -, -, -, -, -, -, e0, e1⟩ := idx_facts t
  have ht : t.val = (i 0).val / 2000 := rfl
  refine ⟨t, flush1_10 t, ?_⟩
  rw [mem_blk10]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 2 ≤ (i 1).val ∧ (i 1).val < win1_10.index t (1 : Fin 2) * 2 + 2; omega

/-- THE THREE OUTPUT ARRAYS after the region. -/
theorem final8 (c : Dev nD) : (dat1 V c).arrAt 8 cfg1.N = G8 V c :=
  (dat1 V c).arrAt_eq_of_cover 8 (G8 V c) (fun t _ => flushed8_eq V c t) (cover8)
theorem final9 (c : Dev nD) : (dat1 V c).arrAt 9 cfg1.N = G9 V c :=
  (dat1 V c).arrAt_eq_of_cover 9 (G9 V c) (fun t _ => flushed9_eq V c t) (cover9)
theorem final10 (c : Dev nD) : (dat1 V c).arrAt 10 cfg1.N = G10 V c :=
  (dat1 V c).arrAt_eq_of_cover 10 (G10 V c) (fun t _ => flushed10_eq V c t) (cover10)

end Cert.KernelIdeal.Region1

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KValue.lean ====
/-
  The kernel program's result buffer as a function of its arguments.

  The program is a fold of buffer contents through eleven boundaries: stretches of host operations, and two pipelined
  regions in between. A buffer that a stretch does not write keeps its contents across it, and so does a buffer that
  is no array of a region across that region (and an input array of a region too); a buffer that a stretch writes
  holds the stretch's operations applied to the contents before it. Walking forward from the launch:

    * the first stretch leaves the sources and the targets of the edges (the two rows of the edge list) and the
      reciprocal of the clamped in-degree, as a column;
    * the first take leaves the feature rows at the sources, the scatter after it their sums at the targets: the
      neighbour sum of the features;
    * region 0 leaves the first layer over these;
    * the same take and scatter over the first layer's output, and the two halves of the classifier's weight;
    * region 1 leaves the second layer's output projected on each half;
    * two takes read the two projections at the sources and at the targets, the next stretch adds them and the bias,
      and the last one takes the logarithm of the softmax of each row.

  First each stretch is read over ARBITRARY contents before it (what it leaves in the one buffer of interest, given
  what the buffers it reads hold); then each boundary's buffers are given in closed form over the launch memory, each
  from the boundary before.
-/
import proofs.«412946_j89781996356214_2_alg».proof.Proof.Gen.KernelIdeal.Frame
import proofs.«412946_j89781996356214_2_alg».proof.Proof.KTerm
import proofs.«412946_j89781996356214_2_alg».proof.Proof.Region0
import proofs.«412946_j89781996356214_2_alg».proof.Proof.Region1
import proofs.«412946_j89781996356214_2_alg».proof.Proof.LibTRef
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen

/-- One boundary back across a stretch of host operations none of which writes the buffer read. -/
macro "skip_host" ops:ident : tactic => `(tactic|
  refine Eq.trans (StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))) ?_)

/-- One boundary back across region 0, for a buffer that is none of its arrays. -/
macro "skip_region0" : tactic => `(tactic| refine Eq.trans (W4_of_ne _ _ _ _ (by decide)) ?_)

/-- One boundary back across region 1, for a buffer that is none of its arrays. -/
macro "skip_region1" : tactic => `(tactic| refine Eq.trans (W7_of_ne _ _ _ _ (by decide)) ?_)

/-- The operations of a module-local function move each value to its buffer's own type and back. First the pairs
    "to the buffer's type, then back" around the intermediate values go, each the identity; then the few moves left
    around the values read and the value written, each along an equation of a type with itself. -/
macro "drop_casts" : tactic => `(tactic|
  (simp only [StableHlo.TRef.ofBuf_toBuf]
   simp only [StableHlo.TRef.ofBuf, StableHlo.TRef.toBuf, cast_eq]))

section AnyModel

variable {F : FTy → Type} [FloatOps F]

/-! ## Each stretch over arbitrary contents: what it leaves in the buffer of interest -/

section Stretches

variable (V : Valuation τ sig (Elt F))

/-- The first stretch leaves row 0 of the edge list in main_v1. -/
theorem src_of (ei : IVec S2x800000 32) (h : V (Proc.devRef .tc main_arg1) = ei) :
    StableHlo.after hostOps0 V (Proc.devRef .tc main_v1) = Term.src ei := by
  after_results
  rw [h]
  rfl

/-- Row 1 in main_v3. -/
theorem dst_of (ei : IVec S2x800000 32) (h : V (Proc.devRef .tc main_arg1) = ei) :
    StableHlo.after hostOps0 V (Proc.devRef .tc main_v3) = Term.dst ei := by
  after_results
  rw [h]
  rfl

/-- The reciprocal of the clamped in-degree, as a column, in main_v12. -/
theorem inv_of (ei : IVec S2x800000 32) (h : V (Proc.devRef .tc main_arg1) = ei) :
    StableHlo.after hostOps0 V (Proc.devRef .tc main_v12) = Term.inv ei := by
  after_results
  rw [h]
  rfl

/-- The first take: the rows of main_arg0 at main_v1, in main_v13. -/
theorem rows0_of (A : Vec F S50000x128 .f32) (I : IVec S800000 32) (hA : V (Proc.devRef .tc main_arg0) = A)
    (hI : V (Proc.devRef .tc main_v1) = I) :
    StableHlo.after hostOps0_1 V (Proc.devRef .tc main_v13) = Term.takeRows A I := by
  after_results_simp
  drop_casts
  rw [hA, hI]
  unfold Term.takeRows Term.inRange Term.wrapc
  rfl

/-- The scatter after it: the rows in main_v13 added up at main_v3, in main_v16. -/
theorem agg0_of (R : Vec F S800000x128 .f32) (J : IVec S800000 32) (hR : V (Proc.devRef .tc main_v13) = R)
    (hJ : V (Proc.devRef .tc main_v3) = J) :
    StableHlo.after hostOps0_2 V (Proc.devRef .tc main_v16)
      = Host.scatterAdd scatter_S50000x128_S800000x1_S800000x128_1_0_0_1
          (broadcastInDim S50000x128 ![] bcast_S_S50000x128 (constant S_ .f32 0x00000000#32))
          (broadcastInDim S800000x1 ![0] bcast_S800000_S800000x1_0 J) R := by
  after_results
  rw [hR, hJ]

/-- The second take: the rows of main_v17 at main_v1, in main_v18. -/
theorem rows1_of (A : Vec F S50000x128 .f32) (I : IVec S800000 32) (hA : V (Proc.devRef .tc main_v17) = A)
    (hI : V (Proc.devRef .tc main_v1) = I) :
    StableHlo.after hostOps1 V (Proc.devRef .tc main_v18) = Term.takeRows A I := by
  after_results_simp
  drop_casts
  rw [hA, hI]
  unfold Term.takeRows Term.inRange Term.wrapc
  rfl

/-- The scatter after it, in main_v21. -/
theorem agg1_of (R : Vec F S800000x128 .f32) (J : IVec S800000 32) (hR : V (Proc.devRef .tc main_v18) = R)
    (hJ : V (Proc.devRef .tc main_v3) = J) :
    StableHlo.after hostOps1_1 V (Proc.devRef .tc main_v21)
      = Host.scatterAdd scatter_S50000x128_S800000x1_S800000x128_1_0_0_1
          (broadcastInDim S50000x128 ![] bcast_S_S50000x128 (constant S_ .f32 0x00000000#32))
          (broadcastInDim S800000x1 ![0] bcast_S800000_S800000x1_0 J) R := by
  after_results
  rw [hR, hJ]

/-- The two halves of the classifier's weight, in main_v22 and main_v23. -/
theorem wTop_of (Wfc : Vec F S256x2 .f32) (h : V (Proc.devRef .tc main_arg8) = Wfc) :
    StableHlo.after hostOps1_1 V (Proc.devRef .tc main_v22) = Term.wTop Wfc := by
  after_results
  rw [h]
  rfl
theorem wBot_of (Wfc : Vec F S256x2 .f32) (h : V (Proc.devRef .tc main_arg8) = Wfc) :
    StableHlo.after hostOps1_1 V (Proc.devRef .tc main_v23) = Term.wBot Wfc := by
  after_results
  rw [h]
  rfl

/-- The third take: the rows of main_v24_1 at main_v1, in main_v25. -/
theorem pair0_of (A : Vec F S50000x2 .f32) (I : IVec S800000 32) (hA : V (Proc.devRef .tc main_v24_1) = A)
    (hI : V (Proc.devRef .tc main_v1) = I) :
    StableHlo.after hostOps2 V (Proc.devRef .tc main_v25) = Term.takePair A I := by
  after_results_simp
  drop_casts
  rw [hA, hI]
  unfold Term.takePair Term.inRange Term.wrapc
  rfl

/-- The fourth take: the rows of main_v24_2 at main_v3, in main_v26. -/
theorem pair1_of (A : Vec F S50000x2 .f32) (I : IVec S800000 32) (hA : V (Proc.devRef .tc main_v24_2) = A)
    (hI : V (Proc.devRef .tc main_v3) = I) :
    StableHlo.after hostOps2_1 V (Proc.devRef .tc main_v26) = Term.takePair A I := by
  after_results_simp
  drop_casts
  rw [hA, hI]
  unfold Term.takePair Term.inRange Term.wrapc
  rfl

/-- The sum of the two taken projections and the bias, in main_v30. -/
theorem sum_of (P Q : Vec F S800000x2 .f32) (b : Vec F S2 .f32) (hP : V (Proc.devRef .tc main_v25) = P)
    (hQ : V (Proc.devRef .tc main_v26) = Q) (hb : V (Proc.devRef .tc main_arg9) = b) :
    StableHlo.after hostOps2_2 V (Proc.devRef .tc main_v30)
      = addf (addf P Q)
          (broadcastInDim S800000x2 ![0, 1] bcast_S1x2_S800000x2_0_1 (broadcastInDim S1x2 ![1] bcast_S2_S1x2_1 b)) := by
  after_results
  rw [hP, hQ, hb]

/-- The logarithm of the softmax of each row of main_v30, in main_v31. -/
theorem lsm_of (s : Vec F S800000x2 .f32) (h : V (Proc.devRef .tc main_v30) = s) :
    StableHlo.after hostOps2_3 V (Proc.devRef .tc main_v31) = Term.lsm s := by
  after_results_simp
  drop_casts
  rw [h]
  unfold Term.lsm
  rfl

end Stretches

/-! ## The boundaries' buffers that need no arithmetic, over the launch memory -/

variable (m : (ℓ : Loc nD τ sig) → Buf (Elt F) ℓ) (ρ : Dev nD → PrngReg) (c : Dev nD)

/-! ### The arguments, at the boundaries where they are read -/

theorem arg0_1 : W1 m ρ c (Proc.devRef .tc main_arg0) = m ((c.tc : Thread nD τ).loc main_arg0) := by
  skip_host hostOps0; rfl
theorem arg0_3 : W3 m ρ c (Proc.devRef .tc main_arg0) = m ((c.tc : Thread nD τ).loc main_arg0) := by
  skip_host hostOps0_2; skip_host hostOps0_1; exact arg0_1 m ρ c
theorem arg2_3 : W3 m ρ c (Proc.devRef .tc main_arg2) = m ((c.tc : Thread nD τ).loc main_arg2) := by
  skip_host hostOps0_2; skip_host hostOps0_1; skip_host hostOps0; rfl
theorem arg3_3 : W3 m ρ c (Proc.devRef .tc main_arg3) = m ((c.tc : Thread nD τ).loc main_arg3) := by
  skip_host hostOps0_2; skip_host hostOps0_1; skip_host hostOps0; rfl
theorem arg4_3 : W3 m ρ c (Proc.devRef .tc main_arg4) = m ((c.tc : Thread nD τ).loc main_arg4) := by
  skip_host hostOps0_2; skip_host hostOps0_1; skip_host hostOps0; rfl
theorem arg5_6 : W6 m ρ c (Proc.devRef .tc main_arg5) = m ((c.tc : Thread nD τ).loc main_arg5) := by
  skip_host hostOps1_1; skip_host hostOps1; skip_region0
  skip_host hostOps0_2; skip_host hostOps0_1; skip_host hostOps0; rfl
theorem arg6_6 : W6 m ρ c (Proc.devRef .tc main_arg6) = m ((c.tc : Thread nD τ).loc main_arg6) := by
  skip_host hostOps1_1; skip_host hostOps1; skip_region0
  skip_host hostOps0_2; skip_host hostOps0_1; skip_host hostOps0; rfl
theorem arg7_6 : W6 m ρ c (Proc.devRef .tc main_arg7) = m ((c.tc : Thread nD τ).loc main_arg7) := by
  skip_host hostOps1_1; skip_host hostOps1; skip_region0
  skip_host hostOps0_2; skip_host hostOps0_1; skip_host hostOps0; rfl
theorem arg8_5 : W5 m ρ c (Proc.devRef .tc main_arg8) = m ((c.tc : Thread nD τ).loc main_arg8) := by
  skip_host hostOps1; skip_region0
  skip_host hostOps0_2; skip_host hostOps0_1; skip_host hostOps0; rfl
theorem arg9_9 : W9 m ρ c (Proc.devRef .tc main_arg9) = m ((c.tc : Thread nD τ).loc main_arg9) := by
  skip_host hostOps2_1; skip_host hostOps2; skip_region1
  skip_host hostOps1_1; skip_host hostOps1; skip_region0
  skip_host hostOps0_2; skip_host hostOps0_1; skip_host hostOps0; rfl

/-! ### The sources, the targets and the reciprocal in-degree, where they are read -/

theorem src_1 : W1 m ρ c (Proc.devRef .tc main_v1) = Term.src (m ((c.tc : Thread nD τ).loc main_arg1)) :=
  src_of (W0 m ρ c) _ rfl
theorem src_4 : W4 m ρ c (Proc.devRef .tc main_v1) = Term.src (m ((c.tc : Thread nD τ).loc main_arg1)) := by
  skip_region0; skip_host hostOps0_2; skip_host hostOps0_1; exact src_1 m ρ c
theorem src_7 : W7 m ρ c (Proc.devRef .tc main_v1) = Term.src (m ((c.tc : Thread nD τ).loc main_arg1)) := by
  skip_region1; skip_host hostOps1_1; skip_host hostOps1; exact src_4 m ρ c

theorem dst_1 : W1 m ρ c (Proc.devRef .tc main_v3) = Term.dst (m ((c.tc : Thread nD τ).loc main_arg1)) :=
  dst_of (W0 m ρ c) _ rfl
theorem dst_2 : W2 m ρ c (Proc.devRef .tc main_v3) = Term.dst (m ((c.tc : Thread nD τ).loc main_arg1)) := by
  skip_host hostOps0_1; exact dst_1 m ρ c
theorem dst_5 : W5 m ρ c (Proc.devRef .tc main_v3) = Term.dst (m ((c.tc : Thread nD τ).loc main_arg1)) := by
  skip_host hostOps1; skip_region0; skip_host hostOps0_2; exact dst_2 m ρ c
theorem dst_8 : W8 m ρ c (Proc.devRef .tc main_v3) = Term.dst (m ((c.tc : Thread nD τ).loc main_arg1)) := by
  skip_host hostOps2; skip_region1; skip_host hostOps1_1; exact dst_5 m ρ c

theorem inv_1 : W1 m ρ c (Proc.devRef .tc main_v12) = Term.inv (m ((c.tc : Thread nD τ).loc main_arg1)) :=
  inv_of (W0 m ρ c) _ rfl
theorem inv_3 : W3 m ρ c (Proc.devRef .tc main_v12) = Term.inv (m ((c.tc : Thread nD τ).loc main_arg1)) := by
  skip_host hostOps0_2; skip_host hostOps0_1; exact inv_1 m ρ c
/-- Region 0 reads the column through an input window and leaves it as it was. -/
theorem inv_6 : W6 m ρ c (Proc.devRef .tc main_v12) = Term.inv (m ((c.tc : Thread nD τ).loc main_arg1)) := by
  skip_host hostOps1_1; skip_host hostOps1
  refine Eq.trans ((W4_arr m ρ c 1).trans (((dat0 (V3 m ρ) c).arrAt_in 1 rfl _).trans (A_eq0 (V3 m ρ) c 1))) ?_
  exact inv_3 m ρ c

/-! ### The neighbour sum of the features, at region 0's entry -/

theorem rows_2 : W2 m ρ c (Proc.devRef .tc main_v13)
    = Term.takeRows (m ((c.tc : Thread nD τ).loc main_arg0)) (Term.src (m ((c.tc : Thread nD τ).loc main_arg1))) :=
  rows0_of (W1 m ρ c) _ _ (arg0_1 m ρ c) (src_1 m ρ c)

theorem agg_3 : W3 m ρ c (Proc.devRef .tc main_v16)
    = Term.agg (m ((c.tc : Thread nD τ).loc main_arg0)) (m ((c.tc : Thread nD τ).loc main_arg1)) :=
  agg0_of (W2 m ρ c) _ _ (rows_2 m ρ c) (dst_2 m ρ c)

/-! ### The two halves of the classifier's weight, at region 1's entry -/

theorem wTop_6 : W6 m ρ c (Proc.devRef .tc main_v22) = Term.wTop (m ((c.tc : Thread nD τ).loc main_arg8)) :=
  wTop_of (W5 m ρ c) _ (arg8_5 m ρ c)
theorem wBot_6 : W6 m ρ c (Proc.devRef .tc main_v23) = Term.wBot (m ((c.tc : Thread nD τ).loc main_arg8)) :=
  wBot_of (W5 m ρ c) _ (arg8_5 m ρ c)

end AnyModel

/-! ## The two regions and what follows them, on the extended reals -/

section OnReals

variable (m : (ℓ : Loc nD τ sig) → Buf (Elt Ideal) ℓ) (ρ : Dev nD → PrngReg) (c : Dev nD)

/-- Region 0's output array: the first layer, over the neighbour sum and the features. -/
theorem h1_4 : W4 m ρ c (Proc.devRef .tc main_v17)
    = Term.h1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (W4_arr m ρ c 6).trans ((Region0.final6 (V3 m ρ) c).trans ?_)
  show Sage.layer (W3 m ρ c (Proc.devRef .tc main_v16)) (W3 m ρ c (Proc.devRef .tc main_arg0))
      (Sage.col (W3 m ρ c (Proc.devRef .tc main_v12))) (W3 m ρ c (Proc.devRef .tc main_arg2))
      (W3 m ρ c (Proc.devRef .tc main_arg4)) (Mlp.vec (W3 m ρ c (Proc.devRef .tc main_arg3))) = _
  rw [agg_3 m ρ c, arg0_3 m ρ c, inv_3 m ρ c, arg2_3 m ρ c, arg4_3 m ρ c, arg3_3 m ρ c]
  rfl

/-- The first layer at region 1's entry. -/
theorem h1_6 : W6 m ρ c (Proc.devRef .tc main_v17)
    = Term.h1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  skip_host hostOps1_1; skip_host hostOps1; exact h1_4 m ρ c

/-- Its rows at the sources, and their sums at the targets: the neighbour sum of the first layer. -/
theorem rows_5 : W5 m ρ c (Proc.devRef .tc main_v18)
    = Term.takeRows (Term.h1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))) (Term.src (m ((c.tc : Thread nD τ).loc main_arg1))) :=
  rows1_of (W4 m ρ c) _ _ (h1_4 m ρ c) (src_4 m ρ c)

theorem agg_6 : W6 m ρ c (Proc.devRef .tc main_v21)
    = Term.agg (Term.h1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))) (m ((c.tc : Thread nD τ).loc main_arg1)) :=
  agg1_of (W5 m ρ c) _ _ (rows_5 m ρ c) (dst_5 m ρ c)

/-- Region 1's second and third output arrays: the second layer projected on each half of the classifier's weight. -/
theorem proj_7a : W7 m ρ c (Proc.devRef .tc main_v24_1)
    = Sage.proj (Term.h2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (Term.wTop (m ((c.tc : Thread nD τ).loc main_arg8))) := by
  refine (W7_arr m ρ c 9).trans ((Region1.final9 (V6 m ρ) c).trans ?_)
  show Sage.proj (Sage.layer (W6 m ρ c (Proc.devRef .tc main_v21)) (W6 m ρ c (Proc.devRef .tc main_v17))
      (Sage.col (W6 m ρ c (Proc.devRef .tc main_v12))) (W6 m ρ c (Proc.devRef .tc main_arg5))
      (W6 m ρ c (Proc.devRef .tc main_arg7)) (Mlp.vec (W6 m ρ c (Proc.devRef .tc main_arg6))))
      (W6 m ρ c (Proc.devRef .tc main_v22)) = _
  rw [agg_6 m ρ c, h1_6 m ρ c, inv_6 m ρ c, arg5_6 m ρ c, arg7_6 m ρ c, arg6_6 m ρ c, wTop_6 m ρ c]
  rfl

theorem proj_7b : W7 m ρ c (Proc.devRef .tc main_v24_2)
    = Sage.proj (Term.h2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (Term.wBot (m ((c.tc : Thread nD τ).loc main_arg8))) := by
  refine (W7_arr m ρ c 10).trans ((Region1.final10 (V6 m ρ) c).trans ?_)
  show Sage.proj (Sage.layer (W6 m ρ c (Proc.devRef .tc main_v21)) (W6 m ρ c (Proc.devRef .tc main_v17))
      (Sage.col (W6 m ρ c (Proc.devRef .tc main_v12))) (W6 m ρ c (Proc.devRef .tc main_arg5))
      (W6 m ρ c (Proc.devRef .tc main_arg7)) (Mlp.vec (W6 m ρ c (Proc.devRef .tc main_arg6))))
      (W6 m ρ c (Proc.devRef .tc main_v23)) = _
  rw [agg_6 m ρ c, h1_6 m ρ c, inv_6 m ρ c, arg5_6 m ρ c, arg7_6 m ρ c, arg6_6 m ρ c, wBot_6 m ρ c]
  rfl

/-- The second projection where the take at the targets reads it. -/
theorem proj_8b : W8 m ρ c (Proc.devRef .tc main_v24_2)
    = Sage.proj (Term.h2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (Term.wBot (m ((c.tc : Thread nD τ).loc main_arg8))) := by
  skip_host hostOps2; exact proj_7b m ρ c

/-- The first projection at the sources. -/
theorem pair_8 : W8 m ρ c (Proc.devRef .tc main_v25)
    = Term.takePair (Sage.proj (Term.h2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (Term.wTop (m ((c.tc : Thread nD τ).loc main_arg8)))) (Term.src (m ((c.tc : Thread nD τ).loc main_arg1))) :=
  pair0_of (W7 m ρ c) _ _ (proj_7a m ρ c) (src_7 m ρ c)

theorem pair_9a : W9 m ρ c (Proc.devRef .tc main_v25)
    = Term.takePair (Sage.proj (Term.h2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (Term.wTop (m ((c.tc : Thread nD τ).loc main_arg8)))) (Term.src (m ((c.tc : Thread nD τ).loc main_arg1))) := by
  skip_host hostOps2_1; exact pair_8 m ρ c

/-- The second projection at the targets. -/
theorem pair_9b : W9 m ρ c (Proc.devRef .tc main_v26)
    = Term.takePair (Sage.proj (Term.h2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
        (Term.wBot (m ((c.tc : Thread nD τ).loc main_arg8)))) (Term.dst (m ((c.tc : Thread nD τ).loc main_arg1))) :=
  pair1_of (W8 m ρ c) _ _ (proj_8b m ρ c) (dst_8 m ρ c)

/-- Each edge's pair of scores. -/
theorem scores_10 : W10 m ρ c (Proc.devRef .tc main_v30)
    = Term.scores
        (Sage.proj (Term.h2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)))
          (Term.wTop (m ((c.tc : Thread nD τ).loc main_arg8))))
        (Sage.proj (Term.h2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)))
          (Term.wBot (m ((c.tc : Thread nD τ).loc main_arg8))))
        (m ((c.tc : Thread nD τ).loc main_arg1)) (m ((c.tc : Thread nD τ).loc main_arg9)) :=
  sum_of (W9 m ρ c) _ _ _ (pair_9a m ρ c) (pair_9b m ρ c) (arg9_9 m ρ c)

/-- THE RESULT BUFFER at the return is the program's value of the arguments at launch. -/
theorem value (m : (ℓ : Loc nD τ sig) → Buf (Elt Ideal) ℓ) (ρ : Dev nD → PrngReg) (c : Dev nD) :
    W11 m ρ c (Proc.devRef .tc main_v31)
      = Term.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  lsm_of (W10 m ρ c) _ (scores_10 m ρ c)

end OnReals

end Cert.KernelIdeal.KValue

end
-- ==== Proof.RefRun.lean ====
/-
  The reference program's run, stated over its stages.

  Every weakly fair execution of the reference terminates with its result buffer at the last stage of the argument
  arrays and the arguments unchanged. The program is one list of 110 host operations, so its final contents is the fold
  of their results over the launch contents; the result buffer is read in two steps, cut before the concatenate: the
  first 90 operations leave the two gathered copies of the second layer's output (at the sources, at the targets) at
  their stages, and the last 20 (the concatenate, the classifier's product and bias, the logarithm of the softmax)
  are read over whatever the first 90 left.
-/
import proofs.«412946_j89781996356214_2_alg».proof.Proof.RefOps
import proofs.«412946_j89781996356214_2_alg».proof.Proof.RefRead
import proofs.«412946_j89781996356214_2_alg».proof.Proof.LibTRef
import Idealize.ShloMosaic.Lib.Pipeline.Frame

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 44000000 in
/-- After the first 90 operations the second layer's output gathered at the sources is at its stage. -/
theorem v62_of (V : Valuation τ sig (Elt F)) :
    after opsA V (Proc.devRef .tc main_v62) = val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  simp only [TRef.ofBuf_toBuf]
  simp only [TRef.ofBuf, TRef.toBuf, cast_eq]
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22, val_main_v23, val_main_v24, val_main_v25, val_main_v26, val_main_v27, val_main_v28, val_main_call0_cst, val_main_call0_v0, val_main_v29, val_main_c_4, val_main_v30, val_main_v31, val_main_c_5, val_main_v32, val_main_v33, val_main_v34, val_main_v35, val_main_v36, val_main_cst_6, val_main_v37, val_main_v38, val_main_v39, val_main_cst_7, val_main_v40, val_main_cst_8, val_main_v41, val_main_v42, val_main_v43, val_main_cst_9, val_main_v44, val_main_v45, val_main_v46, val_main_v47, val_main_v48, val_main_v49, val_main_v50, val_main_v51, val_main_v52, val_main_v53, val_main_v54, val_main_call1_cst, val_main_call1_v0, val_main_v55, val_main_c_10, val_main_v56, val_main_v57, val_main_c_11, val_main_v58, val_main_v59, val_main_v60, val_main_v61, val_main_v62, val_main_c_12, val_main_v63, val_main_v64, val_main_c_13, val_main_v65, val_main_v66, val_main_v67, val_main_v68, val_main_v69]
  rfl

set_option maxHeartbeats 44000000 in
/-- And gathered at the targets. -/
theorem v69_of (V : Valuation τ sig (Elt F)) :
    after opsA V (Proc.devRef .tc main_v69) = val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  simp only [TRef.ofBuf_toBuf]
  simp only [TRef.ofBuf, TRef.toBuf, cast_eq]
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22, val_main_v23, val_main_v24, val_main_v25, val_main_v26, val_main_v27, val_main_v28, val_main_call0_cst, val_main_call0_v0, val_main_v29, val_main_c_4, val_main_v30, val_main_v31, val_main_c_5, val_main_v32, val_main_v33, val_main_v34, val_main_v35, val_main_v36, val_main_cst_6, val_main_v37, val_main_v38, val_main_v39, val_main_cst_7, val_main_v40, val_main_cst_8, val_main_v41, val_main_v42, val_main_v43, val_main_cst_9, val_main_v44, val_main_v45, val_main_v46, val_main_v47, val_main_v48, val_main_v49, val_main_v50, val_main_v51, val_main_v52, val_main_v53, val_main_v54, val_main_call1_cst, val_main_call1_v0, val_main_v55, val_main_c_10, val_main_v56, val_main_v57, val_main_c_11, val_main_v58, val_main_v59, val_main_v60, val_main_v61, val_main_v62, val_main_c_12, val_main_v63, val_main_v64, val_main_c_13, val_main_v65, val_main_v66, val_main_v67, val_main_v68, val_main_v69]
  rfl

set_option maxHeartbeats 44000000 in
/-- The first 90 operations leave the classifier's weight and bias as launched. -/
theorem arg8_of (V : Valuation τ sig (Elt F)) : after opsA V (Proc.devRef .tc main_arg8) = V (Proc.devRef .tc main_arg8) := by
  after_results_simp
set_option maxHeartbeats 44000000 in
theorem arg9_of (V : Valuation τ sig (Elt F)) : after opsA V (Proc.devRef .tc main_arg9) = V (Proc.devRef .tc main_arg9) := by
  after_results_simp

set_option maxHeartbeats 44000000 in
/-- THE RESULT BUFFER after all 110 operations is the last stage of the argument arrays. -/
theorem res_of (V : Valuation τ sig (Elt F)) :
    after ops V (Proc.devRef .tc main_v75) = val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, StableHlo.after_append]
  have e62 := v62_of V
  have e69 := v69_of V
  have e8 := arg8_of V
  have e9 := arg9_of V
  generalize after opsA V = W at e62 e69 e8 e9 ⊢
  after_results_simp
  simp only [TRef.ofBuf_toBuf]
  simp only [TRef.ofBuf, TRef.toBuf, cast_eq]
  rw [e62, e69, e8, e9]
  simp only [val_main_v70, val_main_v71, val_main_v72, val_main_v73, val_main_v74, val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v75]

set_option maxHeartbeats 44000000 in
/-- On every device, from any memory with zero counters: every weakly fair execution of the reference terminates with
    the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v75).trans (res_of (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RunP

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Take.lean ====
/-
  A fill-mode take under an index range is the plain gather; and the rows of an edge list as the programs slice them.

  `take` with out-of-range indices replaced by a fill value is spelled as follows. The index vector `idx` (extent `E`) is
  wrapped the NumPy way, `s ↦ if s < 0 then s + n else s`, and made a column (`wrapCol`). The column `W` is tested
  against the axis, `0 ≤ W ∧ W ≤ n - 1` (signed compares against broadcast constants), the test is reduced by `and` from
  the bit 1 along the unit axis, the resulting mask of extent `E` is broadcast over the gathered rows, and a select takes
  the gathered value `G` where the mask is 1 and the fill elsewhere. If every index lies in `[0, n)` as a signed integer,
  every wrapped entry passes the test, so every bit of the mask is 1 and the select is `G` (`take_fill_eq`).

  Every entry of a broadcast is an entry of its operand (`broadcastInDim_exists`); this is all that is used of the three
  broadcasts of non-constant operands, so no index arithmetic is needed. The broadcasts of constants read the constant.

  `edge_row_apply`: row `r` of a `[2, E]` array, sliced as a `[1, E]` block and cast to a vector, reads at `e` the array
  at `(r, e)`.
-/
import Idealize.ShloMosaic.Lib.ReduceAll
import Idealize.ShloMosaic.Lib.StableHlo.Predicate
import Idealize.ShloMosaic.Lib.IdealHost
import Idealize.ShloMosaic.Lib.Pipeline.Value
import proofs.«412946_j89781996356214_2_alg».proof.Proof.LibIndexWrap

namespace Cert.Take

open Idealize.ShloMosaic Idealize.ShloMosaic.ValueIdx

/-- NumPy's treatment of a negative index (`s ↦ if s < 0 then s + n else s`, entrywise), then the index vector made a
    column. -/
def wrapCol {E : ℕ} (n : BitVec 32) (hb0 : (⟨0, ![]⟩ : Shape).BroadcastsInDim ⟨1, ![E]⟩ ![])
    (hb1 : (⟨1, ![E]⟩ : Shape).BroadcastsInDim ⟨2, ![E, 1]⟩ ![0]) (idx : IVec ⟨1, ![E]⟩ 32) : IVec ⟨2, ![E, 1]⟩ 32 :=
  broadcastInDim ⟨2, ![E, 1]⟩ ![0] hb1
    (select (cmpi .slt idx (broadcastInDim ⟨1, ![E]⟩ ![] hb0 (constantI ⟨0, ![]⟩ 32 0#32)))
      (addi idx (broadcastInDim ⟨1, ![E]⟩ ![] hb0 (constantI ⟨0, ![]⟩ 32 n))) idx)

/-- Every entry of a broadcast is an entry of its operand. -/
theorem broadcastInDim_exists {s t : Shape} {α : Type} {dims : Fin s.rank → Fin t.rank} (h : s.BroadcastsInDim t dims)
    (x : s.Idx → α) (j : t.Idx) : ∃ k : s.Idx, broadcastInDim t dims h x j = x k :=
  ⟨_, rfl⟩

/-- Every entry of the wrapped column is the wrap of an entry of the index vector. -/
theorem wrapCol_exists {E : ℕ} (n : BitVec 32) (hb0 : (⟨0, ![]⟩ : Shape).BroadcastsInDim ⟨1, ![E]⟩ ![])
    (hb1 : (⟨1, ![E]⟩ : Shape).BroadcastsInDim ⟨2, ![E, 1]⟩ ![0]) (idx : IVec ⟨1, ![E]⟩ 32)
    (i : (⟨2, ![E, 1]⟩ : Shape).Idx) : ∃ e : Fin E, wrapCol n hb0 hb1 idx i = IndexWrap.wrapWord n (idx (ix1 e)) := by
  unfold wrapCol
  obtain ⟨k, hk⟩ := broadcastInDim_exists hb1
    (select (cmpi .slt idx (broadcastInDim ⟨1, ![E]⟩ ![] hb0 (constantI ⟨0, ![]⟩ 32 0#32)))
      (addi idx (broadcastInDim ⟨1, ![E]⟩ ![] hb0 (constantI ⟨0, ![]⟩ 32 n))) idx) i
  refine ⟨k 0, hk.trans ?_⟩
  -- a rank-1 index is its one coordinate
  have e1 : idx (ix1 (k 0)) = idx k := congrArg idx (eq_ix1 k).symm
  rw [e1]
  -- at `k` the three vector operations are their word operations, and the two broadcasts read their constants
  rfl

/-- The fill-mode take's mask is all ones under the index range, so its select is the gather. The wrapped column is
    written out (it is `wrapCol (BitVec.ofNat 32 n) hb0 hb1 idx`, see `take_fill_eq_wrapCol`). -/
theorem take_fill_eq {E : ℕ} {R : Shape} {α : Type} {dims : Fin 1 → Fin R.rank} (n : ℕ) (hn0 : 0 < n) (hn : n < 2 ^ 30)
    (hi : BitVec 32) (hhi : hi.toInt = (n : Int) - 1)
    (hb0 : (⟨0, ![]⟩ : Shape).BroadcastsInDim ⟨1, ![E]⟩ ![])
    (hb1 : (⟨1, ![E]⟩ : Shape).BroadcastsInDim ⟨2, ![E, 1]⟩ ![0])
    (hb2 : (⟨0, ![]⟩ : Shape).BroadcastsInDim ⟨2, ![E, 1]⟩ ![])
    (hb3 : (⟨1, ![1]⟩ : Shape).BroadcastsInDim ⟨2, ![1, 1]⟩ ![1])
    (hb4 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (hbm : (⟨1, ![E]⟩ : Shape).BroadcastsInDim R dims)
    (idx : IVec ⟨1, ![E]⟩ 32) (hidx : ∀ e : Fin E, 0 ≤ (idx (ix1 e)).toInt ∧ (idx (ix1 e)).toInt < n)
    (G fill : R.Idx → α) :
    select (broadcastInDim R dims hbm
      (Host.reduce IntOp.andi
        (andi
          (cmpi .sge
            (broadcastInDim ⟨2, ![E, 1]⟩ ![0] hb1
              (select (cmpi .slt idx (broadcastInDim ⟨1, ![E]⟩ ![] hb0 (constantI ⟨0, ![]⟩ 32 0#32)))
                (addi idx (broadcastInDim ⟨1, ![E]⟩ ![] hb0 (constantI ⟨0, ![]⟩ 32 (BitVec.ofNat 32 n)))) idx))
            (broadcastInDim ⟨2, ![E, 1]⟩ ![] hb2 (constantI ⟨0, ![]⟩ 32 0#32)))
          (cmpi .sle
            (broadcastInDim ⟨2, ![E, 1]⟩ ![0] hb1
              (select (cmpi .slt idx (broadcastInDim ⟨1, ![E]⟩ ![] hb0 (constantI ⟨0, ![]⟩ 32 0#32)))
                (addi idx (broadcastInDim ⟨1, ![E]⟩ ![] hb0 (constantI ⟨0, ![]⟩ 32 (BitVec.ofNat 32 n)))) idx))
            (broadcastInDim ⟨2, ![E, 1]⟩ ![0, 1] hb4
              (broadcastInDim ⟨2, ![1, 1]⟩ ![1] hb3 (constantI ⟨1, ![1]⟩ 32 hi)))))
        (constantI ⟨0, ![]⟩ 1 1#1) hr hu)) G fill = G := by
  refine IndexWrap.select_of_ones _ G fill (fun j => ?_)
  -- an entry of the broadcast mask is an entry of the reduced test
  obtain ⟨k, hk⟩ := broadcastInDim_exists hbm
    (Host.reduce IntOp.andi
        (andi
          (cmpi .sge (wrapCol (BitVec.ofNat 32 n) hb0 hb1 idx)
            (broadcastInDim ⟨2, ![E, 1]⟩ ![] hb2 (constantI ⟨0, ![]⟩ 32 0#32)))
          (cmpi .sle (wrapCol (BitVec.ofNat 32 n) hb0 hb1 idx)
            (broadcastInDim ⟨2, ![E, 1]⟩ ![0, 1] hb4
              (broadcastInDim ⟨2, ![1, 1]⟩ ![1] hb3 (constantI ⟨1, ![1]⟩ 32 hi)))))
        (constantI ⟨0, ![]⟩ 1 1#1) hr hu) j
  refine hk.trans ?_
  -- the reduce by `and` from 1 is 1 once the test is 1 at every entry of the column
  refine IndexWrap.reduce_andi_of_all _ _ hr hu (fun _ => rfl) (fun i => ?_) k
  -- the test at `i`: the two compares are word compares against `0` and `hi`
  show IntOp.andi (IntOp.cmpi .sge (wrapCol (BitVec.ofNat 32 n) hb0 hb1 idx i) 0#32)
      (IntOp.cmpi .sle (wrapCol (BitVec.ofNat 32 n) hb0 hb1 idx i) hi) = 1#1
  obtain ⟨e, he⟩ := wrapCol_exists (BitVec.ofNat 32 n) hb0 hb1 idx i
  rw [he]
  exact IndexWrap.rangeTest_wrap n hn0 hn hi hhi _ (by have := (hidx e).1; omega) (hidx e).2

/-- `take_fill_eq` with the wrapped column named. -/
theorem take_fill_eq_wrapCol {E : ℕ} {R : Shape} {α : Type} {dims : Fin 1 → Fin R.rank} (n : ℕ) (hn0 : 0 < n)
    (hn : n < 2 ^ 30) (hi : BitVec 32) (hhi : hi.toInt = (n : Int) - 1)
    (hb0 : (⟨0, ![]⟩ : Shape).BroadcastsInDim ⟨1, ![E]⟩ ![])
    (hb1 : (⟨1, ![E]⟩ : Shape).BroadcastsInDim ⟨2, ![E, 1]⟩ ![0])
    (hb2 : (⟨0, ![]⟩ : Shape).BroadcastsInDim ⟨2, ![E, 1]⟩ ![])
    (hb3 : (⟨1, ![1]⟩ : Shape).BroadcastsInDim ⟨2, ![1, 1]⟩ ![1])
    (hb4 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (hbm : (⟨1, ![E]⟩ : Shape).BroadcastsInDim R dims)
    (idx : IVec ⟨1, ![E]⟩ 32) (hidx : ∀ e : Fin E, 0 ≤ (idx (ix1 e)).toInt ∧ (idx (ix1 e)).toInt < n)
    (G fill : R.Idx → α) :
    select (broadcastInDim R dims hbm
      (Host.reduce IntOp.andi
        (andi
          (cmpi .sge (wrapCol (BitVec.ofNat 32 n) hb0 hb1 idx)
            (broadcastInDim ⟨2, ![E, 1]⟩ ![] hb2 (constantI ⟨0, ![]⟩ 32 0#32)))
          (cmpi .sle (wrapCol (BitVec.ofNat 32 n) hb0 hb1 idx)
            (broadcastInDim ⟨2, ![E, 1]⟩ ![0, 1] hb4
              (broadcastInDim ⟨2, ![1, 1]⟩ ![1] hb3 (constantI ⟨1, ![1]⟩ 32 hi)))))
        (constantI ⟨0, ![]⟩ 1 1#1) hr hu)) G fill = G :=
  take_fill_eq n hn0 hn hi hhi hb0 hb1 hb2 hb3 hb4 hr hu hbm idx hidx G fill

/-- Row `r` of a `[2, E]` array, sliced as a `[1, E]` block at offsets `(r, 0)` and cast to a vector of extent `E`,
    reads at `e` the array at `(r, e)`. -/
theorem edge_row_apply {E w : ℕ} (r : Fin 2) (hs : (⟨2, ![2, E]⟩ : Shape).Slices ![r.val, 0] ⟨2, ![1, E]⟩)
    (hc : (⟨2, ![1, E]⟩ : Shape).ShapeCasts ⟨1, ![E]⟩) (ei : IVec ⟨2, ![2, E]⟩ w) (e : Fin E) :
    shapeCast ⟨1, ![E]⟩ (extractStridedSlice ⟨2, ![1, E]⟩ ![r.val, 0] ei hs) hc (ix1 e) = ei (ix2 r e) := by
  -- the cast keeps the row-major position: `e` in the vector is `(0, e)` in the block
  refine (shapeCast_apply _ hc (ix1 e) (ix2 (0 : Fin 1) e) (by
    rw [Shape.rowMajor_val_two, Shape.rowMajor_val_one]
    show (0 : ℕ) * E + e.val = e.val
    omega)).trans ?_
  -- the slice shifts by the offsets: `(0, e)` in the block is `(r, e)` in the array
  refine extractStridedSlice_apply ![r.val, 0] ei hs (ix2 (0 : Fin 1) e) (ix2 r e) (fun a => ?_)
  match a with
  | ⟨0, _⟩ => show r.val = r.val + 0; omega
  | ⟨1, _⟩ => show e.val = 0 + e.val; omega

/-- `edge_row_apply` at row 0, with the offsets as literals. -/
theorem edge_row0_apply {E w : ℕ} (hs : (⟨2, ![2, E]⟩ : Shape).Slices ![0, 0] ⟨2, ![1, E]⟩)
    (hc : (⟨2, ![1, E]⟩ : Shape).ShapeCasts ⟨1, ![E]⟩) (ei : IVec ⟨2, ![2, E]⟩ w) (e : Fin E) :
    shapeCast ⟨1, ![E]⟩ (extractStridedSlice ⟨2, ![1, E]⟩ ![0, 0] ei hs) hc (ix1 e) = ei (ix2 (0 : Fin 2) e) :=
  edge_row_apply (0 : Fin 2) hs hc ei e

/-- `edge_row_apply` at row 1, with the offsets as literals. -/
theorem edge_row1_apply {E w : ℕ} (hs : (⟨2, ![2, E]⟩ : Shape).Slices ![1, 0] ⟨2, ![1, E]⟩)
    (hc : (⟨2, ![1, E]⟩ : Shape).ShapeCasts ⟨1, ![E]⟩) (ei : IVec ⟨2, ![2, E]⟩ w) (e : Fin E) :
    shapeCast ⟨1, ![E]⟩ (extractStridedSlice ⟨2, ![1, E]⟩ ![1, 0] ei hs) hc (ix1 e) = ei (ix2 (1 : Fin 2) e) :=
  edge_row_apply (1 : Fin 2) hs hc ei e

end Cert.Take
-- ==== Proof.KBridge.lean ====
/-
  The kernel's named pieces under the range hypothesis on the edge list.

  Every entry of the edge list lies in [0, 50000), hence so does every source and every target, and a take of a
  50000-row table at the sources or at the targets is the plain row gather at the wrapped index column: its
  out-of-range fill is never selected. The reciprocal-degree column at node p is  1 / max(deg p, 1) , and the clamped
  degree is at least one, so it is never zero.
-/
import proofs.«412946_j89781996356214_2_alg».proof.Proof.KTerm
import proofs.«412946_j89781996356214_2_alg».proof.Proof.Take
import Idealize.ShloMosaic.Lib.IdealHost

noncomputable section

namespace Cert.KernelIdeal.Term

open Idealize.ShloMosaic Idealize.ShloMosaic.TcCoe Idealize.ShloMosaic.ValueIdx
open Cert.KernelIdeal Cert.KernelIdeal.Facts₀ Cert.KernelIdeal.Facts

/-- The sources lie in range when the edge list does. -/
theorem src_range (ei : IVec S2x800000 32) (hr : ∀ i : S2x800000.Idx, 0 ≤ (ei i).toInt ∧ (ei i).toInt < 50000) (e : Fin 800000) :
    0 ≤ (src ei (ix1 e)).toInt ∧ (src ei (ix1 e)).toInt < 50000 := by
  unfold src
  rw [Take.edge_row0_apply]
  exact hr _

/-- The targets lie in range when the edge list does. -/
theorem dst_range (ei : IVec S2x800000 32) (hr : ∀ i : S2x800000.Idx, 0 ≤ (ei i).toInt ∧ (ei i).toInt < 50000) (e : Fin 800000) :
    0 ≤ (dst ei (ix1 e)).toInt ∧ (dst ei (ix1 e)).toInt < 50000 := by
  unfold dst
  rw [Take.edge_row1_apply]
  exact hr _

variable {F : FTy → Type} [FloatOps F]

/-- A take of 128-column rows at in-range indices is the row gather at the wrapped column. -/
theorem takeRows_eq (A : Vec F S50000x128 .f32) (idx : IVec S800000 32)
    (hidx : ∀ e : Fin 800000, 0 ≤ (idx (ix1 e)).toInt ∧ (idx (ix1 e)).toInt < 50000) :
    takeRows A idx = Host.gather gather_S50000x128_S800000x1_S800000x128_1_0_n_n_0_1_1128 A (wrapc idx) := by
  unfold takeRows inRange wrapc
  exact Take.take_fill_eq 50000 (by decide) (by decide) 49999#32 (by decide) bcast_S_S800000 bcast_S800000_S800000x1_0
    bcast_S_S800000x1 bcast_S1_S1x1_1 bcast_S1x1_S800000x1_0_1 reducesTo_S800000x1_S800000_d1 h_S_
    bcast_S800000_S800000x128_0 idx hidx _ _

/-- A take of 2-column rows at in-range indices is the row gather at the wrapped column. -/
theorem takePair_eq (A : Vec F S50000x2 .f32) (idx : IVec S800000 32)
    (hidx : ∀ e : Fin 800000, 0 ≤ (idx (ix1 e)).toInt ∧ (idx (ix1 e)).toInt < 50000) :
    takePair A idx = Host.gather gather_S50000x2_S800000x1_S800000x2_1_0_n_n_0_1_12 A (wrapc idx) := by
  unfold takePair inRange wrapc
  exact Take.take_fill_eq 50000 (by decide) (by decide) 49999#32 (by decide) bcast_S_S800000 bcast_S800000_S800000x1_0
    bcast_S_S800000x1 bcast_S1_S1x1_1 bcast_S1x1_S800000x1_0_1 reducesTo_S800000x1_S800000_d1 h_S_
    bcast_S800000_S800000x2_0 idx hidx _ _

/-- The word of 1.0 broadcast over the nodes reads one everywhere. -/
theorem ones_apply (j : S50000.Idx) :
    broadcastInDim S50000 ![] bcast_S_S50000 (constant (F := Ideal) S_ .f32 0x3F800000#32) j = 1 := by
  rw [broadcastInDim_scalar_apply]
  exact Ideal.ofBits_one_f32

/-- The clamped degree is never zero. -/
theorem dmax_ne_zero (ei : IVec S2x800000 32) (p : Fin 50000) : dmax (F := Ideal) ei (ix1 p) ≠ 0 := by
  unfold dmax
  rw [maximumf_apply, ones_apply]
  exact Sage.max_one_ne_zero _

/-- The reciprocal-degree column at node p is one over the clamped degree of p. -/
theorem col_inv (ei : IVec S2x800000 32) :
    Sage.col (inv (F := Ideal) ei) = fun p => Ideal.div 1 (dmax (F := Ideal) ei (ix1 p)) := by
  funext p
  show inv (F := Ideal) ei (ix2 p 0) = _
  unfold inv
  rw [shapeCast_apply _ _ (ix2 p 0) (ix1 p) (by
    rw [Shape.rowMajor_val_one, Shape.rowMajor_val_two]; show p.val = p.val * 1 + 0; omega), hostDivf_apply, ones_apply]

end Cert.KernelIdeal.Term

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.LibEdgeScore.lean ====
/-
  An edge's classifier score two ways.

  With  h  the node features ([N, H]),  W  the classifier's weight ([H + H, O]), and two columns of start indices  I ,  J
  (one entry per edge: its source, its target):

    (h · W[0:H])[I]  +  (h · W[H:2H])[J]      (project at the nodes, then take the rows)
    =  concat(h[I], h[J]) · W                 (take the rows, lay them side by side, then project),

  entry by entry: a row gather reads row  clamp(I e)  of its table, whichever table; the product with the concatenation
  is a sum over  H + H  columns that splits at  H  into the sum against the top half of  W  and the sum against its
  bottom half. Only the associativity of finite sums is used; nothing is asked of the indices.
-/
import Idealize.ShloMosaic.PureOps.Ideal
import Idealize.ShloMosaic.PureOps.Ideal.Laws
import Idealize.ShloMosaic.Lib.ValueIdx
import Idealize.ShloMosaic.Lib.Pipeline.Value
import proofs.«412946_j89781996356214_2_alg».proof.Proof.LibRowGather
import proofs.«412946_j89781996356214_2_alg».proof.Proof.LibSage

noncomputable section

open Idealize.ShloMosaic Idealize.ShloMosaic.ValueIdx

namespace Cert.EdgeScore

open Cert.RowGather (rowsDims gather_rows_apply)

/-- The top half of the weight, entry (k, o). -/
theorem top_apply {H O : ℕ} (W : (⟨2, ![H + H, O]⟩ : Shape).Idx → EReal)
    (hs : (⟨2, ![H + H, O]⟩ : Shape).Slices ![0, 0] ⟨2, ![H, O]⟩) (k : Fin H) (o : Fin O) :
    extractStridedSlice (⟨2, ![H, O]⟩ : Shape) ![0, 0] W hs (ix2 k o) = W (ix2 (Fin.castAdd H k) o) := by
  refine extractStridedSlice_apply ![0, 0] W hs (ix2 k o) (ix2 (Fin.castAdd H k) o) fun a => ?_
  match a with
  | ⟨0, _⟩ => show k.val = 0 + k.val; omega
  | ⟨1, _⟩ => show o.val = 0 + o.val; omega

/-- The bottom half of the weight, entry (k, o). -/
theorem bot_apply {H O : ℕ} (W : (⟨2, ![H + H, O]⟩ : Shape).Idx → EReal)
    (hs : (⟨2, ![H + H, O]⟩ : Shape).Slices ![H, 0] ⟨2, ![H, O]⟩) (k : Fin H) (o : Fin O) :
    extractStridedSlice (⟨2, ![H, O]⟩ : Shape) ![H, 0] W hs (ix2 k o) = W (ix2 (Fin.natAdd H k) o) := by
  refine extractStridedSlice_apply ![H, 0] W hs (ix2 k o) (ix2 (Fin.natAdd H k) o) fun a => ?_
  match a with
  | ⟨0, _⟩ => show H + k.val = H + k.val; rfl
  | ⟨1, _⟩ => show o.val = 0 + o.val; omega

/-- Two row blocks side by side, read in the left one. -/
theorem side_left {E H : ℕ} (A B : (⟨2, ![E, H]⟩ : Shape).Idx → EReal)
    (hc : Shape.Concatenates [(⟨2, ![E, H]⟩ : Shape), ⟨2, ![E, H]⟩] ⟨2, ![E, H + H]⟩ 1) (e : Fin E) (k : Fin H) :
    concatenate (⟨2, ![E, H + H]⟩ : Shape) 1 [⟨⟨2, ![E, H]⟩, A⟩, ⟨⟨2, ![E, H]⟩, B⟩] hc (ix2 e (Fin.castAdd H k)) = A (ix2 e k) := by
  refine concatenate_pair_apply_left (1 : Fin 2) A B hc (ix2 e (Fin.castAdd H k)) rfl (ix2 e k) fun b => ?_
  match b with
  | ⟨0, _⟩ => rfl
  | ⟨1, _⟩ => rfl

/-- Two row blocks side by side, read in the right one. -/
theorem side_right {E H : ℕ} (A B : (⟨2, ![E, H]⟩ : Shape).Idx → EReal)
    (hc : Shape.Concatenates [(⟨2, ![E, H]⟩ : Shape), ⟨2, ![E, H]⟩] ⟨2, ![E, H + H]⟩ 1) (e : Fin E) (k : Fin H) :
    concatenate (⟨2, ![E, H + H]⟩ : Shape) 1 [⟨⟨2, ![E, H]⟩, A⟩, ⟨⟨2, ![E, H]⟩, B⟩] hc (ix2 e (Fin.natAdd H k)) = B (ix2 e k) := by
  refine concatenate_pair_apply_right (1 : Fin 2) A B hc (ix2 e (Fin.natAdd H k)) rfl rfl (ix2 e k) (fun b hb => ?_) ?_
  · match b with
    | ⟨0, _⟩ => rfl
    | ⟨1, _⟩ => exact absurd rfl hb
  · show k.val + H = H + k.val; omega

/-- THE TWO SCORES AGREE, entry (e, o). -/
theorem score_split {N E H O : ℕ} (hN : 0 < N)
    (wfH : GatherDims.WF ⟨2, ![N, H]⟩ ⟨2, ![E, 1]⟩ ⟨2, ![E, H]⟩ [1] [0] [] [0] [] 1 ![1, H])
    (wfO : GatherDims.WF ⟨2, ![N, O]⟩ ⟨2, ![E, 1]⟩ ⟨2, ![E, O]⟩ [1] [0] [] [0] [] 1 ![1, O])
    (d : DotDims ⟨2, ![E, H + H]⟩ ⟨2, ![H + H, O]⟩ ⟨2, ![E, O]⟩) (hd : d = DotDims.plain E (H + H) O)
    (hc : Shape.Concatenates [(⟨2, ![E, H]⟩ : Shape), ⟨2, ![E, H]⟩] ⟨2, ![E, H + H]⟩ 1)
    (hsT : (⟨2, ![H + H, O]⟩ : Shape).Slices ![0, 0] ⟨2, ![H, O]⟩) (hsB : (⟨2, ![H + H, O]⟩ : Shape).Slices ![H, 0] ⟨2, ![H, O]⟩)
    (h : FVec Ideal ⟨2, ![N, H]⟩ .f32) (W : FVec Ideal ⟨2, ![H + H, O]⟩ .f32) (I J : IVec ⟨2, ![E, 1]⟩ 32)
    (e : Fin E) (o : Fin O) :
    Host.gather (rowsDims N O E wfO) (Sage.proj h (extractStridedSlice (⟨2, ![H, O]⟩ : Shape) ![0, 0] W hsT)) I (ix2 e o)
      + Host.gather (rowsDims N O E wfO) (Sage.proj h (extractStridedSlice (⟨2, ![H, O]⟩ : Shape) ![H, 0] W hsB)) J (ix2 e o)
    = Host.dotGeneral (F := Ideal) (φ₁ := .f32) (φ₂ := .f32) d none (concatenate (⟨2, ![E, H + H]⟩ : Shape) 1
        [⟨⟨2, ![E, H]⟩, Host.gather (rowsDims N H E wfH) h I⟩, ⟨⟨2, ![E, H]⟩, Host.gather (rowsDims N H E wfH) h J⟩] hc) W (ix2 e o) := by
  rw [Sage.host_matmul d hd _ W e o, Fin.sum_univ_add, gather_rows_apply hN wfO _ I e o, gather_rows_apply hN wfO _ J e o]
  congr 1
  · show (∑ k : Fin H, h (ix2 _ k) * extractStridedSlice (⟨2, ![H, O]⟩ : Shape) ![0, 0] W hsT (ix2 k o)) = _
    refine Finset.sum_congr rfl fun k _ => ?_
    rw [top_apply W hsT k o, side_left _ _ hc e k, gather_rows_apply hN wfH h I e k]
    rfl
  · show (∑ k : Fin H, h (ix2 _ k) * extractStridedSlice (⟨2, ![H, O]⟩ : Shape) ![H, 0] W hsB (ix2 k o)) = _
    refine Finset.sum_congr rfl fun k _ => ?_
    rw [bot_apply W hsB k o, side_right _ _ hc e k, gather_rows_apply hN wfH h J e k]
    rfl

end Cert.EdgeScore

end
-- ==== Proof.RefBridge.lean ====
/-
  The reference's stages are the kernel's named pieces, under the range hypothesis on the edge list.

  Stage by stage: the sources, the targets and their wrapped index columns are spelt alike in the two programs; so are
  the clamped degree and the scatter-add. The kernel's take at in-range indices is the reference's gather, so the two
  neighbour sums are one array. Each layer of the reference is the host's spelling of LibSage.lean's layer at the
  reciprocal of the clamped degree, which is never zero, and that is what the kernel's reciprocal column holds. The
  edge scores agree by LibEdgeScore.lean (project at the nodes and gather, against gather, concatenate and project), and
  both programs finish with the same logarithm of the softmax of the scores.
-/
import proofs.«412946_j89781996356214_2_alg».proof.Proof.RefRead
import proofs.«412946_j89781996356214_2_alg».proof.Proof.KTerm
import proofs.«412946_j89781996356214_2_alg».proof.Proof.KBridge
import proofs.«412946_j89781996356214_2_alg».proof.Proof.LibEdgeScore

set_option maxRecDepth 16384

noncomputable section

namespace Cert.Bridge

open Idealize.ShloMosaic Idealize.ShloMosaic.TcCoe Idealize.ShloMosaic.ValueIdx
open Cert.ReferenceIdeal.ReadP
open Cert.KernelIdeal (Term.src Term.dst Term.wrapc Term.dmax Term.inv Term.agg Term.takeRows Term.takePair Term.wTop Term.wBot
  Term.scores Term.lsm Term.h1 Term.h2 Term.result)

local notation "RS" => Cert.ReferenceIdeal.S50000x128

variable (x0 : Vec Ideal Cert.ReferenceIdeal.S50000x128 .f32) (x1 : IVec Cert.ReferenceIdeal.S2x800000 32)
  (x2 : Vec Ideal Cert.ReferenceIdeal.S128x128 .f32) (x3 : Vec Ideal Cert.ReferenceIdeal.S128 .f32)
  (x4 x5 : Vec Ideal Cert.ReferenceIdeal.S128x128 .f32) (x6 : Vec Ideal Cert.ReferenceIdeal.S128 .f32)
  (x7 : Vec Ideal Cert.ReferenceIdeal.S128x128 .f32) (x8 : Vec Ideal Cert.ReferenceIdeal.S256x2 .f32)
  (x9 : Vec Ideal Cert.ReferenceIdeal.S2 .f32)

/-! ## The pieces the two programs spell alike -/

theorem src_eq : val_main_v1 (F := Ideal) x1 = Term.src x1 := rfl
theorem dst_eq : val_main_v3 (F := Ideal) x1 = Term.dst x1 := rfl
theorem wrap_src_a : val_main_v9 (F := Ideal) x1 = Term.wrapc (Term.src x1) := rfl
theorem wrap_src_b : val_main_v35 (F := Ideal) x1 = Term.wrapc (Term.src x1) := rfl
theorem wrap_src_c : val_main_v61 (F := Ideal) x1 = Term.wrapc (Term.src x1) := rfl
theorem wrap_dst : val_main_v68 (F := Ideal) x1 = Term.wrapc (Term.dst x1) := rfl
theorem deg_a : val_main_v19 (F := Ideal) x1 = Term.dmax (F := Ideal) x1 := rfl
theorem deg_b : val_main_v45 (F := Ideal) x1 = Term.dmax (F := Ideal) x1 := rfl

variable (hr : ∀ i : Cert.ReferenceIdeal.S2x800000.Idx, 0 ≤ (x1 i).toInt ∧ (x1 i).toInt < 50000)
include hr

/-! ## The neighbour sums -/

/-- The reference's neighbour sum of a table (rows gathered at the wrapped sources, added up at the targets) is the
    kernel's (rows TAKEN at the sources): in range the take is the gather. -/
theorem agg_eq (A : Vec Ideal Cert.ReferenceIdeal.S50000x128 .f32) :
    Host.scatterAdd (F := Ideal) (φ := .f32) Cert.ReferenceIdeal.scatter_S50000x128_S800000x1_S800000x128_1_0_0_1 (val_main_v11 (F := Ideal)) (val_main_v12 (F := Ideal) x1)
      (Host.gather Cert.ReferenceIdeal.gather_S50000x128_S800000x1_S800000x128_1_0_n_n_0_1_1128 A (Term.wrapc (Term.src x1)))
    = Term.agg A x1 := by
  unfold Term.agg
  rw [Cert.KernelIdeal.Term.takeRows_eq A _ (Cert.KernelIdeal.Term.src_range x1 hr)]
  rfl

theorem agg1_eq : val_main_v13 (F := Ideal) x0 x1 = Term.agg x0 x1 := by
  unfold val_main_v13 val_main_v10
  rw [wrap_src_a]
  exact agg_eq x1 hr x0

theorem agg2_eq : val_main_v39 (F := Ideal) x0 x1 x2 x3 x4 = Term.agg (val_main_v29 (F := Ideal) x0 x1 x2 x3 x4) x1 := by
  unfold val_main_v39 val_main_v36
  rw [wrap_src_b]
  exact agg_eq x1 hr _

/-! ## The two layers -/

theorem layer1_eq : val_main_v29 (F := Ideal) x0 x1 x2 x3 x4 = Term.h1 x0 x1 x2 x3 x4 := by
  have hdm : ∀ p : Fin 50000, val_main_v19 (F := Ideal) x1 (ix1 p) ≠ 0 := fun p => by
    rw [deg_a]; exact Cert.KernelIdeal.Term.dmax_ne_zero x1 p
  have e : val_main_v29 (F := Ideal) x0 x1 x2 x3 x4
      = Sage.layer (val_main_v13 (F := Ideal) x0 x1) x0 (fun p => Ideal.div 1 (val_main_v19 (F := Ideal) x1 (ix1 p))) x2 x4 (Mlp.vec x3) := by
    unfold val_main_v29 val_main_v28 val_main_v27 val_main_v26 val_main_v25 val_main_v24 val_main_v23 val_main_v22 val_main_v21
      val_main_v20 val_main_call0_v0 val_main_call0_cst
    exact Sage.host_layer Cert.ReferenceIdeal.dot_S50000x128_S128x128_S50000x128_1_0_0_1_n_n rfl _ _ _ _ _
      (val_main_v13 (F := Ideal) x0 x1) x0 (val_main_v19 (F := Ideal) x1) x2 x4 x3 hdm
  rw [e, agg1_eq x0 x1 hr, deg_a]
  unfold Term.h1
  rw [Cert.KernelIdeal.Term.col_inv]

theorem layer2_eq : val_main_v55 (F := Ideal) x0 x1 x2 x3 x4 x5 x6 x7 = Term.h2 x0 x1 x2 x3 x4 x5 x6 x7 := by
  have hdm : ∀ p : Fin 50000, val_main_v45 (F := Ideal) x1 (ix1 p) ≠ 0 := fun p => by
    rw [deg_b]; exact Cert.KernelIdeal.Term.dmax_ne_zero x1 p
  have e : val_main_v55 (F := Ideal) x0 x1 x2 x3 x4 x5 x6 x7
      = Sage.layer (val_main_v39 (F := Ideal) x0 x1 x2 x3 x4) (val_main_v29 (F := Ideal) x0 x1 x2 x3 x4)
          (fun p => Ideal.div 1 (val_main_v45 (F := Ideal) x1 (ix1 p))) x5 x7 (Mlp.vec x6) := by
    unfold val_main_v55 val_main_v54 val_main_v53 val_main_v52 val_main_v51 val_main_v50 val_main_v49 val_main_v48 val_main_v47
      val_main_v46 val_main_call1_v0 val_main_call1_cst
    exact Sage.host_layer Cert.ReferenceIdeal.dot_S50000x128_S128x128_S50000x128_1_0_0_1_n_n rfl _ _ _ _ _
      (val_main_v39 (F := Ideal) x0 x1 x2 x3 x4) (val_main_v29 (F := Ideal) x0 x1 x2 x3 x4) (val_main_v45 (F := Ideal) x1) x5 x7 x6 hdm
  rw [e, agg2_eq x0 x1 x2 x3 x4 hr, layer1_eq x0 x1 x2 x3 x4 hr, deg_b]
  unfold Term.h2
  rw [Cert.KernelIdeal.Term.col_inv]

/-! ## The scores and the result -/

theorem scores_eq : val_main_v74 (F := Ideal) x0 x1 x2 x3 x4 x5 x6 x7 x8 x9
    = Term.scores (Sage.proj (Term.h2 x0 x1 x2 x3 x4 x5 x6 x7) (Term.wTop x8)) (Sage.proj (Term.h2 x0 x1 x2 x3 x4 x5 x6 x7) (Term.wBot x8)) x1 x9 := by
  funext i
  obtain ⟨e, o, rfl⟩ : ∃ (e : Fin 800000) (o : Fin 2), i = ix2 e o := ⟨i 0, i 1, eq_ix2 i⟩
  unfold val_main_v74 val_main_v71 val_main_v70 val_main_v62 val_main_v69 Term.scores
  rw [wrap_src_c, wrap_dst, layer2_eq x0 x1 x2 x3 x4 x5 x6 x7 hr,
    Cert.KernelIdeal.Term.takePair_eq _ _ (Cert.KernelIdeal.Term.src_range x1 hr),
    Cert.KernelIdeal.Term.takePair_eq _ _ (Cert.KernelIdeal.Term.dst_range x1 hr)]
  unfold Term.wTop Term.wBot
  rw [addf_apply, addf_apply, addf_apply]
  refine congrArg₂ (· + ·) ?_ rfl
  exact (EdgeScore.score_split (N := 50000) (E := 800000) (H := 128) (O := 2) (by decide) _ _
    Cert.ReferenceIdeal.dot_S800000x256_S256x2_S800000x2_1_0_0_1_n_n rfl _ _ _
    (Term.h2 x0 x1 x2 x3 x4 x5 x6 x7) x8 (Term.wrapc (Term.src x1)) (Term.wrapc (Term.dst x1)) e o).symm

omit hr in
/-- Both programs end with the logarithm of the softmax of the scores, spelt alike. -/
theorem tail_eq : val_main_v75 (F := Ideal) x0 x1 x2 x3 x4 x5 x6 x7 x8 x9 = Term.lsm (val_main_v74 (F := Ideal) x0 x1 x2 x3 x4 x5 x6 x7 x8 x9) := by
  unfold val_main_v75 val_main_call2_v10 val_main_call2_v9 val_main_call2_v8 val_main_call2_v7 val_main_call2_v6 val_main_call2_v5
    val_main_call2_v4 val_main_call2_v3 val_main_call2_v2 val_main_call2_v1 val_main_call2_v0 val_main_call2_cst val_main_call2_cst_0
    val_main_call2_cst_1 Term.lsm
  rfl

/-- THE REFERENCE'S RESULT IS THE KERNEL'S, as functions of the same arguments. -/
theorem result_eq : val_main_v75 (F := Ideal) x0 x1 x2 x3 x4 x5 x6 x7 x8 x9 = Term.result x0 x1 x2 x3 x4 x5 x6 x7 x8 x9 := by
  rw [tail_eq, scores_eq x0 x1 x2 x3 x4 x5 x6 x7 x8 x9 hr]
  rfl

end Cert.Bridge

end
-- ==== Proof.Pre.lean ====
/-
  The node-id range, read back from the printed precondition.

  The precondition is a rank-0 bit: a chain of `and`s whose last two conjuncts are `all (edge_index ≥ 0)` and
  `all (edge_index < 50000)`, each a reduce by `and` from the bit 1 of a signed word compare against a broadcast
  constant. If the whole chain is 1, both of these conjuncts are 1; a reduce by `and` over all axes that is 1 had a 1
  at every operand index; and a signed compare that is 1 is the order of the two signed values. Hence every entry `v` of
  the edge list satisfies `0 ≤ v < 50000` as a signed integer. The nine float conjuncts in front are never opened.
-/
import Idealize.ShloMosaic.Lib.ReduceAll
import Idealize.ShloMosaic.Lib.StableHlo.Predicate
import Idealize.ShloMosaic.Lib.IdealHost
import proofs.«412946_j89781996356214_2_alg».proof.Pre_finite_inputs

namespace Cert.PreRange

open Idealize.ShloMosaic Idealize.ShloMosaic.ValueIdx

/-- Under the precondition every entry of the edge list is a signed integer in `[0, 50000)`. -/
theorem edge_range [Cert.Pre_finite_inputs.Facts] (a0 : FVec Ideal Cert.Pre_finite_inputs.S50000x128 .f32)
    (a1 : IVec Cert.Pre_finite_inputs.S2x800000 32) (a2 : FVec Ideal Cert.Pre_finite_inputs.S128x128 .f32)
    (a3 : FVec Ideal Cert.Pre_finite_inputs.S128 .f32) (a4 : FVec Ideal Cert.Pre_finite_inputs.S128x128 .f32)
    (a5 : FVec Ideal Cert.Pre_finite_inputs.S128x128 .f32) (a6 : FVec Ideal Cert.Pre_finite_inputs.S128 .f32)
    (a7 : FVec Ideal Cert.Pre_finite_inputs.S128x128 .f32) (a8 : FVec Ideal Cert.Pre_finite_inputs.S256x2 .f32)
    (a9 : FVec Ideal Cert.Pre_finite_inputs.S2 .f32)
    (h : Cert.Pre_finite_inputs.fn (F := Ideal) a0 a1 a2 a3 a4 a5 a6 a7 a8 a9 = fun _ => 1#1) :
    ∀ i : Cert.Pre_finite_inputs.S2x800000.Idx, 0 ≤ (a1 i).toInt ∧ (a1 i).toInt < 50000 := by
  intro i
  -- the rank-0 shape has one index
  haveI : Subsingleton Cert.Pre_finite_inputs.S_.Idx := ⟨fun a b => funext fun d => d.elim0⟩
  -- the value of the chain at its one index
  have h0 := congrFun h ix0
  dsimp only [Cert.Pre_finite_inputs.fn, Cert.Pre_finite_inputs.fn_part1, Cert.Pre_finite_inputs.fn_part2,
    Cert.Pre_finite_inputs.fn_part3] at h0
  -- the last conjunct, then the one before it
  obtain ⟨h47, h50⟩ := IntOp.andi_eq_one.1 h0
  obtain ⟨_, h46⟩ := IntOp.andi_eq_one.1 h47
  -- each `all` at the entry `i`
  have hge : IntOp.cmpi .sge (a1 i) 0#32 = 1#1 := Host.reduce_andi_all _ _ _ _ _ h46 i
  have hlt : IntOp.cmpi .slt (a1 i) 50000#32 = 1#1 := Host.reduce_andi_all _ _ _ _ _ h50 i
  have hz : (0#32 : BitVec 32).toInt = 0 := by decide
  have hn : (50000#32 : BitVec 32).toInt = 50000 := by decide
  have h1 := IntOp.cmpi_sge.1 hge
  have h2 := IntOp.cmpi_slt.1 hlt
  rw [hz] at h1
  rw [hn] at h2
  exact ⟨h1, h2⟩

end Cert.PreRange
-- ==== Proof.lean ====
/-
  The certificate: the kernel (two mean-aggregation graph layers as two pallas regions, the edge classifier projected at
  the nodes, gathers and scatter-adds on the host) against its reference, over the extended reals.

  The three programs run: the kernel's two printed forms by their generated frames; the reference by its run.
  The idealized kernel is the kernel's sanctioned idealization with nothing to show (no rewrite was applied).
  The two idealized programs end with equal results: the kernel's result buffer is the function  Term.result  of the
  arguments (the regions read as values in Region0.lean and Region1.lean, the host stretches between them in
  KValue.lean), the reference's is its last stage, and the two are one function of the arguments wherever every entry
  of the edge list is a node index in [0, 50000) (RefBridge.lean), which the precondition states (Pre.lean).
-/
import proofs.«412946_j89781996356214_2_alg».proof.Defs
import proofs.«412946_j89781996356214_2_alg».proof.Proof.Gen.Kernel
import proofs.«412946_j89781996356214_2_alg».proof.Proof.Gen.Kernel.Frame
import proofs.«412946_j89781996356214_2_alg».proof.Proof.Gen.KernelIdeal
import proofs.«412946_j89781996356214_2_alg».proof.Proof.Gen.KernelIdeal.Frame
import proofs.«412946_j89781996356214_2_alg».proof.Proof.Gen.ReferenceIdeal
import proofs.«412946_j89781996356214_2_alg».proof.Proof.Gen.Pre_finite_inputs
import proofs.«412946_j89781996356214_2_alg».proof.Proof.KernelRun
import proofs.«412946_j89781996356214_2_alg».proof.Proof.KValue
import proofs.«412946_j89781996356214_2_alg».proof.Proof.RefRun
import proofs.«412946_j89781996356214_2_alg».proof.Proof.RefBridge
import proofs.«412946_j89781996356214_2_alg».proof.Proof.Pre
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the arguments, under the precondition: the kernel's result buffer ends at  Term.result  of
    its arguments, the reference's at its last stage of the same arguments, and in range of the edge list the two are
    one function. -/
theorem algebraic : Cert.algebraic_KernelIdeal_ReferenceIdeal := by
  intro m ρ m' ρ' hpre hagree
  refine ⟨fun c => Cert.KernelIdeal.Term.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KValue.value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨a0, a1, a2, a3, a4, a5, a6, a7, a8, a9⟩ := hagree c
    rw [a0, a1, a2, a3, a4, a5, a6, a7, a8, a9]
    exact Cert.Bridge.result_eq _ _ _ _ _ _ _ _ _ _ (Cert.PreRange.edge_range _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
